-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S16x2048x768 : Shape := ⟨3, ![16, 2048, 768]⟩
abbrev S768x128 : Shape := ⟨2, ![768, 128]⟩
abbrev S128 : Shape := ⟨1, ![128]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S16x2048 32) (main_arg1 : FVec F S16x2048x768 .f32) (main_arg2 : IVec S16x2048 32) (main_arg3 : IVec S16x2048 32) (main_arg4 : FVec F S768x128 .f32) (main_arg5 : FVec F S128 .f32) : IVec S_ 1 :=
  let main_v0 : FVec F S16x2048x768 .f32 := Host.absf main_arg1
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S768x128 .f32 := Host.absf main_arg4
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x2048 : Shape := ⟨2, ![16, 2048]⟩
abbrev S16x2048x768 : Shape := ⟨3, ![16, 2048, 768]⟩
abbrev S768x128 : Shape := ⟨2, ![768, 128]⟩
abbrev S128 : Shape := ⟨1, ![128]⟩
abbrev S16x1x2048 : Shape := ⟨3, ![16, 1, 2048]⟩
abbrev S16x2048x128 : Shape := ⟨3, ![16, 2048, 128]⟩
abbrev S16x256x128 : Shape := ⟨3, ![16, 256, 128]⟩
abbrev S16x1x256 : Shape := ⟨3, ![16, 1, 256]⟩
abbrev S1x2048x768 : Shape := ⟨3, ![1, 2048, 768]⟩
abbrev S1x1x2048 : Shape := ⟨3, ![1, 1, 2048]⟩
abbrev S1x2048x128 : Shape := ⟨3, ![1, 2048, 128]⟩
abbrev S1x256x128 : Shape := ⟨3, ![1, 256, 128]⟩
abbrev S1x1x256 : Shape := ⟨3, ![1, 1, 256]⟩
abbrev S2048x768 : Shape := ⟨2, ![2048, 768]⟩
abbrev S2048x128 : Shape := ⟨2, ![2048, 128]⟩
abbrev S1x128 : Shape := ⟨2, ![1, 128]⟩
abbrev S1x2048 : Shape := ⟨2, ![1, 2048]⟩
abbrev S256x1 : Shape := ⟨2, ![256, 1]⟩
abbrev S256x2048 : Shape := ⟨2, ![256, 2048]⟩
abbrev S256x128 : Shape := ⟨2, ![256, 128]⟩
abbrev S256 : Shape := ⟨1, ![256]⟩
abbrev S1x256 : Shape := ⟨2, ![1, 256]⟩
abbrev S16x8x32x128 : Shape := ⟨4, ![16, 8, 32, 128]⟩
abbrev S16x8x32 : Shape := ⟨3, ![16, 8, 32]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S16x2048, .i32⟩
  | .hbm, ⟨1, _⟩ => ⟨S16x2048x768, .f32⟩
  | .hbm, ⟨2, _⟩ => ⟨S16x2048, .i32⟩
  | .hbm, ⟨3, _⟩ => ⟨S16x2048, .i32⟩
  | .hbm, ⟨4, _⟩ => ⟨S768x128, .f32⟩
  | .hbm, ⟨5, _⟩ => ⟨S128, .f32⟩
  | .hbm, ⟨6, _⟩ => ⟨S16x1x2048, .i32⟩
  | .hbm, ⟨7, _⟩ => ⟨S16x1x2048, .i32⟩
  | .hbm, ⟨8, _⟩ => ⟨S16x2048x128, .f32⟩
  | .hbm, ⟨9, _⟩ => ⟨S16x256x128, .f32⟩
  | .hbm, ⟨10, _⟩ => ⟨S16x1x256, .i32⟩
  | .hbm, ⟨11, _⟩ => ⟨S16x8x32x128, .f32⟩
  | .hbm, ⟨12, _⟩ => ⟨S16x8x32, .i32⟩
  | .hbm, ⟨13, _⟩ => ⟨S_, .i32⟩
  | .hbm, ⟨14, _⟩ => ⟨S16x8x32, .i32⟩
  | .hbm, ⟨15, _⟩ => ⟨S16x8x32, .i1⟩
  | .hbm, ⟨16, _⟩ => ⟨S16x8x32, .i1⟩
  | .local _ .vmem, ⟨0, _⟩ => ⟨S1x2048x768, .f32⟩
  | .local _ .vmem, ⟨1, _⟩ => ⟨S1x2048x768, .f32⟩
  | .local _ .vmem, ⟨2, _⟩ => ⟨S768x128, .f32⟩
  | .local _ .vmem, ⟨3, _⟩ => ⟨S128, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x2048x128, .f32⟩
  | .local _ .vmem, ⟨9, _⟩ => ⟨S1x2048x128, .f32⟩
  | .local _ .vmem, ⟨10, _⟩ => ⟨S1x256x128, .f32⟩
  | .local _ .vmem, ⟨11, _⟩ => ⟨S1x256x128, .f32⟩
  | .local _ .vmem, ⟨12, _⟩ => ⟨S1x1x256, .i32⟩
  | .local _ .vmem, ⟨13, _⟩ => ⟨S1x1x256, .i32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x2048_S16x1x2048 : S16x2048.ShapeCasts S16x1x2048
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S256x1_d0_w32 : S256x1.Iotas .tc 32 [0]
  broadcasts_S1x2048_S256x2048 : S1x2048.Broadcasts S256x2048
  broadcasts_S256x1_S256x2048 : S256x1.Broadcasts S256x2048
  natLt_1_32 : 1 < 32
  reduces_S256x2048_S256 : S256x2048.Reduces [1] S256
  shapeCasts_S256_S256x1 : S256.ShapeCasts S256x1
  broadcasts_S256x1_S256x128 : S256x1.Broadcasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  shapeCasts_S256x1_S1x256 : S256x1.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S16x256x128_S16x8x32x128 : S16x256x128.ShapeCasts S16x8x32x128
  shapeCasts_S16x1x256_S16x8x32 : S16x1x256.ShapeCasts S16x8x32
  bcast_S_S16x8x32 : S_.BroadcastsInDim S16x8x32 (![] : Fin 0 → Fin S16x8x32.rank)
  dot_S2048x768_S768x128_S2048x128_1_0_0_1_n_n_wf : DotDims.WF S2048x768 S768x128 S2048x128 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S16x2048x768.size a
  hwx0_0 : ∀ i : grid0.Coords, EltTy.bits .f32 = 32 ∨ (Rect.block (s := S16x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .i32 = 32 ∨ (Rect.block (s := S16x1x2048) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x2048.size a
  hwx0_4 : ∀ i : grid0.Coords, EltTy.bits .i32 = 32 ∨ (Rect.block (s := S16x1x2048) S1x1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x128.size a ≤ S16x2048x128.size a
  hwx0_5 : ∀ i : grid0.Coords, EltTy.bits .f32 = 32 ∨ (Rect.block (s := S16x2048x128) S1x2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x128.size a ≤ S16x256x128.size a
  hwx0_6 : ∀ i : grid0.Coords, EltTy.bits .f32 = 32 ∨ (Rect.block (s := S16x256x128) S1x256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S16x1x256.size a
  hwx0_7 : ∀ i : grid0.Coords, EltTy.bits .i32 = 32 ∨ (Rect.block (s := S16x1x256) S1x1x256.size (cc0_transform_7 i) (hinb0_7 i)).WholeWords (EltTy.packing .i32)

variable [Facts₀]

def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg1) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x256x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048 : Shape := ⟨2, ![16, 2048]⟩
abbrev S16x2048x768 : Shape := ⟨3, ![16, 2048, 768]⟩
abbrev S768x128 : Shape := ⟨2, ![768, 128]⟩
abbrev S128 : Shape := ⟨1, ![128]⟩
abbrev S16x2048x128 : Shape := ⟨3, ![16, 2048, 128]⟩
abbrev S1x1x128 : Shape := ⟨3, ![1, 1, 128]⟩
abbrev S_ : Shape := ⟨0, ![]⟩
abbrev S16 : Shape := ⟨1, ![16]⟩
abbrev S16x1 : Shape := ⟨2, ![16, 1]⟩
abbrev S32768 : Shape := ⟨1, ![32768]⟩
abbrev S32768x128 : Shape := ⟨2, ![32768, 128]⟩
abbrev S4097x128 : Shape := ⟨2, ![4097, 128]⟩
abbrev S32768x1 : Shape := ⟨2, ![32768, 1]⟩
abbrev S4096x128 : Shape := ⟨2, ![4096, 128]⟩
abbrev S4097 : Shape := ⟨1, ![4097]⟩
abbrev S4096 : Shape := ⟨1, ![4096]⟩
abbrev S16x8x32x128 : Shape := ⟨4, ![16, 8, 32, 128]⟩
abbrev S16x8x32 : Shape := ⟨3, ![16, 8, 32]⟩
abbrev S16x8x32x1 : Shape := ⟨4, ![16, 8, 32, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16x2048x768, .f32⟩
  | .hbm, ⟨2, _⟩ => ⟨S16x2048, .i32⟩
  | .hbm, ⟨3, _⟩ => ⟨S16x2048, .i32⟩
  | .hbm, ⟨4, _⟩ => ⟨S768x128, .f32⟩
  | .hbm, ⟨5, _⟩ => ⟨S128, .f32⟩
  | .hbm, ⟨6, _⟩ => ⟨S16x2048x128, .f32⟩
  | .hbm, ⟨7, _⟩ => ⟨S1x1x128, .f32⟩
  | .hbm, ⟨8, _⟩ => ⟨S16x2048x128, .f32⟩
  | .hbm, ⟨9, _⟩ => ⟨S16x2048x128, .f32⟩
  | .hbm, ⟨10, _⟩ => ⟨S_, .i32⟩
  | .hbm, ⟨11, _⟩ => ⟨S16x2048, .i32⟩
  | .hbm, ⟨12, _⟩ => ⟨S16x2048, .i1⟩
  | .hbm, ⟨13, _⟩ => ⟨S_, .i32⟩
  | .hbm, ⟨14, _⟩ => ⟨S16x2048, .i32⟩
  | .hbm, ⟨15, _⟩ => ⟨S16x2048, .i1⟩
  | .hbm, ⟨16, _⟩ => ⟨S16x2048, .i1⟩
  | .hbm, ⟨17, _⟩ => ⟨S_, .i32⟩
  | .hbm, ⟨18, _⟩ => ⟨S16x2048, .i32⟩
  | .hbm, ⟨19, _⟩ => ⟨S16x2048, .i1⟩
  | .hbm, ⟨20, _⟩ => ⟨S16x2048, .i1⟩
  | .hbm, ⟨21, _⟩ => ⟨S_, .i32⟩
  | .hbm, ⟨22, _⟩ => ⟨S16x2048, .i32⟩
  | .hbm, ⟨23, _⟩ => ⟨S16x2048, .i1⟩
  | .hbm, ⟨24, _⟩ => ⟨S16x2048, .i1⟩
  | .hbm, ⟨25, _⟩ => ⟨S16, .i32⟩
  | .hbm, ⟨26, _⟩ => ⟨S16x1, .i32⟩
  | .hbm, ⟨27, _⟩ => ⟨S_, .i32⟩
  | .hbm, ⟨28, _⟩ => ⟨S16x1, .i32⟩
  | .hbm, ⟨29, _⟩ => ⟨S16x1, .i32⟩
  | .hbm, ⟨30, _⟩ => ⟨S_, .i32⟩
  | .hbm, ⟨31, _⟩ => ⟨S16x2048, .i32⟩
  | .hbm, ⟨32, _⟩ => ⟨S16x2048, .i32⟩
  | .hbm, ⟨33, _⟩ => ⟨S16x2048, .i32⟩
  | .hbm, ⟨34, _⟩ => ⟨S16x2048, .i32⟩
  | .hbm, ⟨35, _⟩ => ⟨S_, .i32⟩
  | .hbm, ⟨36, _⟩ => ⟨S16x2048, .i32⟩
  | .hbm, ⟨37, _⟩ => ⟨S16x2048, .i32⟩
  | .hbm, ⟨38, _⟩ => ⟨S_, .i32⟩
  | .hbm, ⟨39, _⟩ => ⟨S16x2048, .i32⟩
  | .hbm, ⟨40, _⟩ => ⟨S16x2048, .i32⟩
  | .hbm, ⟨41, _⟩ => ⟨S16x2048, .i32⟩
  | .hbm, ⟨42, _⟩ => ⟨S_, .i32⟩
  | .hbm, ⟨43, _⟩ => ⟨S_, .i32⟩
  | .hbm, ⟨44, _⟩ => ⟨S16x2048, .i32⟩
  | .hbm, ⟨45, _⟩ => ⟨S16x2048, .i32⟩
  | .hbm, ⟨46, _⟩ => ⟨S32768, .i32⟩
  | .hbm, ⟨47, _⟩ => ⟨S32768x128, .f32⟩
  | .hbm, ⟨48, _⟩ => ⟨S_, .f32⟩
  | .hbm, ⟨49, _⟩ => ⟨S4097x128, .f32⟩
  | .hbm, ⟨50, _⟩ => ⟨S32768x1, .i32⟩
  | .hbm, ⟨51, _⟩ => ⟨S4097x128, .f32⟩
  | .hbm, ⟨52, _⟩ => ⟨S4096x128, .f32⟩
  | .hbm, ⟨53, _⟩ => ⟨S32768, .i1⟩
  | .hbm, ⟨54, _⟩ => ⟨S32768, .f32⟩
  | .hbm, ⟨55, _⟩ => ⟨S_, .f32⟩
  | .hbm, ⟨56, _⟩ => ⟨S4097, .f32⟩
  | .hbm, ⟨57, _⟩ => ⟨S32768x1, .i32⟩
  | .hbm, ⟨58, _⟩ => ⟨S4097, .f32⟩
  | .hbm, ⟨59, _⟩ => ⟨S4096, .f32⟩
  | .hbm, ⟨60, _⟩ => ⟨S16x8x32x128, .f32⟩
  | .hbm, ⟨61, _⟩ => ⟨S16x8x32, .f32⟩
  | .hbm, ⟨62, _⟩ => ⟨S_, .f32⟩
  | .hbm, ⟨63, _⟩ => ⟨S16x8x32, .f32⟩
  | .hbm, ⟨64, _⟩ => ⟨S16x8x32, .i1⟩
  | .hbm, ⟨65, _⟩ => ⟨S_, .f32⟩
  | .hbm, ⟨66, _⟩ => ⟨S16x8x32, .f32⟩
  | .hbm, ⟨67, _⟩ => ⟨S16x8x32, .f32⟩
  | .hbm, ⟨68, _⟩ => ⟨S16x8x32x1, .f32⟩
  | .hbm, ⟨69, _⟩ => ⟨S16x8x32x128, .f32⟩
  | .hbm, ⟨70, _⟩ => ⟨S16x8x32x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  bcast_S_S16x2048 : S_.BroadcastsInDim S16x2048 (![] : Fin 0 → Fin S16x2048.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x2048_0_1 : S16x1.BroadcastsInDim S16x2048 (![0, 1] : Fin 2 → Fin S16x2048.rank)
  shapeCasts_S16x2048_S32768 : S16x2048.ShapeCasts S32768
  shapeCasts_S16x2048x128_S32768x128 : S16x2048x128.ShapeCasts S32768x128
  bcast_S_S4097x128 : S_.BroadcastsInDim S4097x128 (![] : Fin 0 → Fin S4097x128.rank)
  bcast_S32768_S32768x1_0 : S32768.BroadcastsInDim S32768x1 (![0] : Fin 1 → Fin S32768x1.rank)
  slices_S4097x128_S4096x128_0_0 : S4097x128.Slices ![0, 0] S4096x128
  bcast_S_S4097 : S_.BroadcastsInDim S4097 (![] : Fin 0 → Fin S4097.rank)
  slices_S4097_S4096_0 : S4097.Slices ![0] S4096
  shapeCasts_S4096x128_S16x8x32x128 : S4096x128.ShapeCasts S16x8x32x128
  shapeCasts_S4096_S16x8x32 : S4096.ShapeCasts S16x8x32
  bcast_S_S16x8x32 : S_.BroadcastsInDim S16x8x32 (![] : Fin 0 → Fin S16x8x32.rank)
  bcast_S16x8x32_S16x8x32x1_0_1_2 : S16x8x32.BroadcastsInDim S16x8x32x1 (![0, 1, 2] : Fin 3 → Fin S16x8x32x1.rank)
  bcast_S16x8x32x1_S16x8x32x128_0_1_2_3 : S16x8x32x1.BroadcastsInDim S16x8x32x128 (![0, 1, 2, 3] : Fin 4 → Fin S16x8x32x128.rank)
  dot_S16x2048x768_S768x128_S16x2048x128_2_0_01_1_n_n_wf : DotDims.WF S16x2048x768 S768x128 S16x2048x128 [2] [0] [0, 1] [1] [] []
  scatter_S4097x128_S32768x1_S32768x128_1_0_0_1_wf : ScatterDims.WF S4097x128 S32768x1 S32768x128 [1] [0] [0] 1
  scatter_S4097_S32768x1_S32768_n_0_0_1_wf : ScatterDims.WF S4097 S32768x1 S32768 [] [0] [0] 1

variable [Facts₀]

def dot_S16x2048x768_S768x128_S16x2048x128_2_0_01_1_n_n : DotDims S16x2048x768 S768x128 S16x2048x128 where
  lhsContracting := [2]
  rhsContracting := [0]
  lhsNonContracting := [0, 1]
  rhsNonContracting := [1]
  lhsBatch := []
  rhsBatch := []
  wf := dot_S16x2048x768_S768x128_S16x2048x128_2_0_01_1_n_n_wf
def scatter_S4097x128_S32768x1_S32768x128_1_0_0_1 : ScatterDims S4097x128 S32768x1 S32768x128 where
  updateWindowDims := [1]
  insertedWindowDims := [0]
  scatterDimsToOperandDims := [0]
  indexVectorDim := 1
  wf := scatter_S4097x128_S32768x1_S32768x128_1_0_0_1_wf
def scatter_S4097_S32768x1_S32768_n_0_0_1 : ScatterDims S4097 S32768x1 S32768 where
  updateWindowDims := []
  insertedWindowDims := [0]
  scatterDimsToOperandDims := [0]
  indexVectorDim := 1
  wf := scatter_S4097_S32768x1_S32768_n_0_0_1_wf

class Facts : Prop extends Facts₀ where

variable [Facts]
-- ==== Proof.Spec.lean ====
/-
  The segmented mean of projected tokens, as functions of the argument arrays.

  A token (b, s) of batch row b carries a hidden vector hs[b, s, ·] and two ids, attr[b, s] and item[b, s]. Its
  projection is  proj[b, s, d] = Σ_k hs[b, s, k] · w[k, d] + bias[d]  (a sum of 768 products on the extended reals).
  The token is in range when 1 ≤ attr ≤ 8 and 1 ≤ item ≤ 32 (signed); its slot within the row is then
  (attr − 1) · 32 + (item − 1), a number below 256, and otherwise the word of all ones, which is no slot.
  For a row b and a slot k:  count[b, k] is the number of tokens of the row in slot k,  total[b, k, d] the sum of their
  projections, the slot is empty when its count is 0, and  mean[b, k, d] = total[b, k, d] / (1 if empty else count[b, k]).
  The three results are the mean laid out over (row, attr − 1, item − 1, d), the empty flag over (row, attr − 1, item − 1),
  and the projection itself.
-/
import Idealize.ShloMosaic.PureOps.Ideal
import Idealize.ShloMosaic.Lib.ValueIdx

noncomputable section

open scoped BigOperators

namespace Cert.Pool

open Idealize.ShloMosaic Idealize.ShloMosaic.ValueIdx

/-- The two id arrays: 16 rows of 2048 tokens. -/
abbrev TokS : Shape := ⟨2, ![16, 2048]⟩
/-- The hidden vectors. -/
abbrev HidS : Shape := ⟨3, ![16, 2048, 768]⟩
/-- The projection's matrix. -/
abbrev WgtS : Shape := ⟨2, ![768, 128]⟩
/-- Its bias. -/
abbrev BiasS : Shape := ⟨1, ![128]⟩
/-- The projected tokens. -/
abbrev ProjS : Shape := ⟨3, ![16, 2048, 128]⟩
/-- The means, by row, attr − 1, item − 1 and feature. -/
abbrev PoolS : Shape := ⟨4, ![16, 8, 32, 128]⟩
/-- The empty flags, by row, attr − 1 and item − 1. -/
abbrev FlagS : Shape := ⟨3, ![16, 8, 32]⟩

/-- A token's projection at feature d: the 768 products summed, plus the bias. -/
def proj (hs : HidS.Idx → EReal) (w : WgtS.Idx → EReal) (bias : BiasS.Idx → EReal) (b : Fin 16) (s : Fin 2048) (d : Fin 128) : EReal :=
  (∑ k : Fin 768, hs (ix3 b s k) * w (ix2 k d)) + bias (ix1 d)

/-- Both ids in range, as a one-bit word: 1 ≤ a ≤ 8 and 1 ≤ it ≤ 32, compared signed. -/
def okW (a it : BitVec 32) : BitVec 1 :=
  IntOp.andi (IntOp.andi (IntOp.andi (IntOp.cmpi .sge a 1#32) (IntOp.cmpi .sle a 8#32)) (IntOp.cmpi .sge it 1#32)) (IntOp.cmpi .sle it 32#32)

/-- The token's slot within its row: (a − 1) · 32 + (it − 1) when in range, else the word of all ones. -/
def slotW (a it : BitVec 32) : BitVec 32 :=
  Scalar.select (okW a it) (IntOp.addi (IntOp.muli (IntOp.subi a 1#32) 32#32) (IntOp.subi it 1#32)) 4294967295#32

/-- The token's slot among all rows' slots: ((b · 8 + (a − 1)) · 32 + (it − 1) when in range, else 4096, one past the last. -/
def gslotW (b : Fin 16) (a it : BitVec 32) : BitVec 32 :=
  Scalar.select (okW a it)
    (IntOp.addi (IntOp.muli (IntOp.addi (IntOp.muli (BitVec.ofNat 32 b.val) 8#32) (IntOp.subi a 1#32)) 32#32) (IntOp.subi it 1#32)) 4096#32

/-- Token s of row b is in slot k. -/
def hits (attr item : TokS.Idx → BitVec 32) (b : Fin 16) (k : Fin 256) (s : Fin 2048) : Prop :=
  slotW (attr (ix2 b s)) (item (ix2 b s)) = BitVec.ofNat 32 k.val

instance (attr item : TokS.Idx → BitVec 32) (b : Fin 16) (k : Fin 256) (s : Fin 2048) : Decidable (hits attr item b k s) := by
  unfold hits; infer_instance

/-- The number of tokens of row b in slot k. -/
def count (attr item : TokS.Idx → BitVec 32) (b : Fin 16) (k : Fin 256) : EReal :=
  ∑ s : Fin 2048, if hits attr item b k s then (1 : EReal) else 0

/-- The sum of the projections of row b's tokens in slot k, at feature d. -/
def total (hs : HidS.Idx → EReal) (w : WgtS.Idx → EReal) (bias : BiasS.Idx → EReal) (attr item : TokS.Idx → BitVec 32)
    (b : Fin 16) (k : Fin 256) (d : Fin 128) : EReal :=
  ∑ s : Fin 2048, if hits attr item b k s then proj hs w bias b s d else 0

/-- Slot k of row b holds no token: its count compares equal to zero. -/
def emptyW (attr item : TokS.Idx → BitVec 32) (b : Fin 16) (k : Fin 256) : BitVec 1 :=
  Ideal.cmp .oeq (count attr item b k) (Ideal.ofBits .f32 0x00000000#32)

/-- The mean of slot k of row b at feature d: the total over the count, over one when the slot is empty. -/
def mean (hs : HidS.Idx → EReal) (w : WgtS.Idx → EReal) (bias : BiasS.Idx → EReal) (attr item : TokS.Idx → BitVec 32)
    (b : Fin 16) (k : Fin 256) (d : Fin 128) : EReal :=
  Ideal.div (total hs w bias attr item b k d)
    (Scalar.select (emptyW attr item b k) (Ideal.ofBits .f32 0x3F800000#32) (count attr item b k))

/-- The slot of the pair (attr − 1, item − 1). -/
def slotOf (a : Fin 8) (it : Fin 32) : Fin 256 := ⟨a.val * 32 + it.val, by omega⟩

/-- First result: the means. -/
def Gpooled (hs : HidS.Idx → EReal) (w : WgtS.Idx → EReal) (bias : BiasS.Idx → EReal) (attr item : TokS.Idx → BitVec 32) :
    PoolS.Idx → EReal :=
  fun i => mean hs w bias attr item (i 0) (slotOf (i 1) (i 2)) (i 3)

/-- Second result: the empty flags. -/
def Gempty (attr item : TokS.Idx → BitVec 32) : FlagS.Idx → BitVec 1 :=
  fun i => emptyW attr item (i 0) (slotOf (i 1) (i 2))

/-- Third result: the projected tokens. -/
def Gproj (hs : HidS.Idx → EReal) (w : WgtS.Idx → EReal) (bias : BiasS.Idx → EReal) : ProjS.Idx → EReal :=
  fun i => proj hs w bias (i 0) (i 1) (i 2)

end Cert.Pool

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.BodyValue.lean ====
/-
  What one grid point's body leaves in its three output blocks, read at an entry. The point sees one row's block of
  hidden vectors x0, the matrix x1, the bias x2 and the row's two id blocks x3, x4. It writes the row's projections,
  the row's slot means (total over count, over one for an empty slot), and the row's empty flags widened to 32 bits.
-/
import proofs.«430442_j6803228197089_3_alg».proof.Proof.Gen.KernelIdeal.Frame
import proofs.«430442_j6803228197089_3_alg».proof.Proof.Spec
import proofs.«430442_j6803228197089_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Pool

/-- The row's projection of token s at feature d, from the point's blocks. -/
def rowProj (x0 : Vec Ideal S1x2048x768 .f32) (x1 : Vec Ideal S768x128 .f32) (x2 : Vec Ideal S128 .f32) (s : Fin 2048) (d : Fin 128) : EReal :=
  (∑ k : Fin 768, x0 (ix3 0 s k) * x1 (ix2 k d)) + x2 (ix1 d)

/-- Token s of the row is in slot k. -/
def rowHits (x3 x4 : Vec Ideal S1x1x2048 .i32) (k : Fin 256) (s : Fin 2048) : Prop :=
  slotW (x3 (ix3 0 0 s)) (x4 (ix3 0 0 s)) = BitVec.ofNat 32 k.val

instance (x3 x4 : Vec Ideal S1x1x2048 .i32) (k : Fin 256) (s : Fin 2048) : Decidable (rowHits x3 x4 k s) := by
  unfold rowHits; infer_instance

/-- The number of the row's tokens in slot k. -/
def rowCount (x3 x4 : Vec Ideal S1x1x2048 .i32) (k : Fin 256) : EReal :=
  ∑ s : Fin 2048, if rowHits x3 x4 k s then (1 : EReal) else 0

/-- The sum of their projections at feature d. -/
def rowTotal (x0 : Vec Ideal S1x2048x768 .f32) (x1 : Vec Ideal S768x128 .f32) (x2 : Vec Ideal S128 .f32)
    (x3 x4 : Vec Ideal S1x1x2048 .i32) (k : Fin 256) (d : Fin 128) : EReal :=
  ∑ s : Fin 2048, if rowHits x3 x4 k s then rowProj x0 x1 x2 s d else 0

/-- The slot holds no token of the row. -/
def rowEmptyW (x3 x4 : Vec Ideal S1x1x2048 .i32) (k : Fin 256) : BitVec 1 :=
  Ideal.cmp .oeq (rowCount x3 x4 k) (Ideal.ofBits .f32 0x00000000#32)

/-- The slot's mean at feature d. -/
def rowMean (x0 : Vec Ideal S1x2048x768 .f32) (x1 : Vec Ideal S768x128 .f32) (x2 : Vec Ideal S128 .f32)
    (x3 x4 : Vec Ideal S1x1x2048 .i32) (k : Fin 256) (d : Fin 128) : EReal :=
  Ideal.div (rowTotal x0 x1 x2 x3 x4 k d)
    (Scalar.select (rowEmptyW x3 x4 k) (Ideal.ofBits .f32 0x3F800000#32) (rowCount x3 x4 k))

/-! ## Three column layouts read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a row index `p` of an `[a, b]` array reduced along its columns, the index with column `c` put back is `(p, c)`. -/
theorem lift_cols {a b : ℕ} (h : (⟨2, ![a, b]⟩ : Shape).Reduces [1] ⟨1, ![a]⟩) (p : Fin a) (c : Fin b) :
    h.lift (ix1 p) c = ix2 p c := by
  funext ax
  apply Fin.ext
  match ax with
  | ⟨0, _⟩ => rfl
  | ⟨1, _⟩ => rfl

end Layout

/-! ## The projection -/

/-- A whole block starts at offset zero on every axis: rank 1, -/
theorem hz1 : (![0] : Fin 1 → Nat) = fun _ => 0 := funext fun a => by fin_cases a <;> rfl
/-- rank 2, -/
theorem hz2 : (![0, 0] : Fin 2 → Nat) = fun _ => 0 := funext fun a => by fin_cases a <;> rfl
/-- and rank 3. -/
theorem hz3 : (![0, 0, 0] : Fin 3 → Nat) = fun _ => 0 := funext fun a => by fin_cases a <;> rfl

/-- The projection's product contracts the left operand's columns with the right operand's rows, with no batch axis. -/
theorem dotProj_eq : dot_S2048x768_S768x128_S2048x128_1_0_0_1_n_n = DotDims.plain 2048 768 128 := rfl
/-- So does the pooling product. -/
theorem dotPool_eq : dot_S256x2048_S2048x128_S256x128_1_0_0_1_n_n = DotDims.plain 256 2048 128 := rfl

/-- The body's projected block at (s, d): the 768 products summed, plus the bias (a change of float format is the
    identity on extended reals). -/
theorem pay6_apply (x0 : Vec Ideal S1x2048x768 .f32) (x1 : Vec Ideal S768x128 .f32) (x2 : Vec Ideal S128 .f32)
    (s : Fin 2048) (d : Fin 128) :
    k0_pay6 (F := Ideal) x0 x1 x2 (ix2 s d) = rowProj x0 x1 x2 s d := by
  unfold k0_pay6 rowProj
  rw [addf_apply, dotProj_eq]
  simp only [matmul]
  rw [Cert.LibPlainDot.matmul_plain_apply, broadcastTo_1b_ab_apply, shapeCast_a_1a_apply]
  congr 1
  refine Finset.sum_congr rfl fun j _ => ?_
  rw [truncf_apply, truncf_apply, shapeCast_1ab_ab_apply]

/-! ## The ids and the one-hot factor -/

section Words
variable {sh : Shape} {w : Nat}

/-- The integer operations read at an index act on the elements. -/
theorem andi_apply (x y : IVec sh w) (i : sh.Idx) : andi x y i = IntOp.andi (x i) (y i) := rfl
theorem addi_apply (x y : IVec sh w) (i : sh.Idx) : addi x y i = IntOp.addi (x i) (y i) := rfl
theorem subi_apply (x y : IVec sh w) (i : sh.Idx) : subi x y i = IntOp.subi (x i) (y i) := rfl
theorem muli_apply (x y : IVec sh w) (i : sh.Idx) : muli x y i = IntOp.muli (x i) (y i) := rfl
theorem cmpi_apply (p : CmpIPredicate) (x y : IVec sh w) (i : sh.Idx) : cmpi p x y i = IntOp.cmpi p (x i) (y i) := rfl

end Words

/-- The equality test of two words is the bit 1 when they are equal and the bit 0 otherwise. -/
theorem cmpi_eq_word (a b : BitVec 32) : IntOp.cmpi .eq a b = if a = b then 1#1 else 0#1 := by
  unfold IntOp.cmpi
  by_cases h : a = b
  · rw [if_pos h]; subst h; simp
  · rw [if_neg h]
    have hb : (a == b) = false := by simpa using h
    rw [hb]; rfl

/-- That bit, widened to 32 bits and converted to a float, is the real 1 or 0. -/
theorem onehot (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  rw [cmpi_eq_word]
  by_cases h : a = b
  · rw [if_pos h, if_pos h]
    have e : ((1#1 : BitVec 1).setWidth 32).toInt = 1 := by decide
    rw [e]; simp
  · rw [if_neg h, if_neg h]
    have e : ((0#1 : BitVec 1).setWidth 32).toInt = 0 := by decide
    rw [e]; simp

/-- The row's first id block, its leading unit axis dropped, at token s. -/
theorem pay8_apply (x3 : Vec Ideal S1x1x2048 .i32) (s : Fin 2048) :
    k0_pay8 (F := Ideal) x3 (ix2 0 s) = x3 (ix3 0 0 s) := by
  unfold k0_pay8; rw [shapeCast_1ab_ab_apply]

/-- The row's second id block, its leading unit axis dropped, at token s. -/
theorem pay9_apply (x4 : Vec Ideal S1x1x2048 .i32) (s : Fin 2048) :
    k0_pay9 (F := Ideal) x4 (ix2 0 s) = x4 (ix3 0 0 s) := by
  unfold k0_pay9; rw [shapeCast_1ab_ab_apply]

/-- The body's in-range bit of token s is the specification's. -/
theorem pay10_apply (x3 x4 : Vec Ideal S1x1x2048 .i32) (s : Fin 2048) :
    k0_pay10 (F := Ideal) x3 x4 (ix2 0 s) = okW (x3 (ix3 0 0 s)) (x4 (ix3 0 0 s)) := by
  unfold k0_pay10 okW
  simp only [andi_apply, cmpi_apply, broadcast_apply, pay8_apply, pay9_apply]

/-- The body's slot arithmetic of token s is the specification's. -/
theorem pay11_apply (x3 x4 : Vec Ideal S1x1x2048 .i32) (s : Fin 2048) :
    k0_pay11 (F := Ideal) x3 x4 (ix2 0 s)
      = IntOp.addi (IntOp.muli (IntOp.subi (x3 (ix3 0 0 s)) 1#32) 32#32) (IntOp.subi (x4 (ix3 0 0 s)) 1#32) := by
  unfold k0_pay11
  simp only [addi_apply, muli_apply, subi_apply, broadcast_apply, pay8_apply, pay9_apply]

/-- The one-hot factor at (k, s): 1 when token s is in slot k, else 0. -/
theorem hot_apply (x3 x4 : Vec Ideal S1x1x2048 .i32) (k : Fin 256) (s : Fin 2048) :
    k0_pay1 (F := Ideal) (k0_pay10 x3 x4) (k0_pay11 x3 x4) (ix2 k s) = if rowHits x3 x4 k s then (1 : EReal) else 0 := by
  have e : k0_pay1 (F := Ideal) (k0_pay10 x3 x4) (k0_pay11 x3 x4) (ix2 k s)
      = FloatOps.sitofp (F := Ideal) .f32
          ((IntOp.cmpi .eq (slotW (x3 (ix3 0 0 s)) (x4 (ix3 0 0 s))) (BitVec.ofNat 32 k.val)).setWidth 32) := by
    unfold k0_pay1 slotW
    rw [sitofp_apply, extui_apply, cmpi_apply, broadcastTo_1b_ab_apply, broadcastTo_a1_ab_apply, select_apply, broadcast_apply,
      iota_single_apply, pay10_apply, pay11_apply]
  rw [e, onehot]
  by_cases h : rowHits x3 x4 k s
  · rw [if_pos h]; exact if_pos h
  · rw [if_neg h]; exact if_neg h

/-! ## Count, empty flag, mean -/

/-- The lane sum of the one-hot factor over the tokens is the slot's count. -/
theorem pay2_apply (x3 x4 : Vec Ideal S1x1x2048 .i32) (k : Fin 256) :
    k0_pay2 (F := Ideal) (k0_pay10 x3 x4) (k0_pay11 x3 x4) (ix2 k 0) = rowCount x3 x4 k := by
  unfold k0_pay2 rowCount
  rw [shapeCast_a_a1_apply]
  refine (Ideal.multiReduction_add_single _ 0x00000000#32 reduces_S256x2048_S256 (.inl rfl) rfl (ix1 k)).trans ?_
  refine Finset.sum_congr rfl fun (s : Fin 2048) _ => ?_
  exact (congrArg (k0_pay1 (F := Ideal) (k0_pay10 x3 x4) (k0_pay11 x3 x4)) (lift_cols reduces_S256x2048_S256 k s)).trans
    (hot_apply x3 x4 k s)

/-- The body's empty bit of slot k. -/
theorem pay3_apply (x3 x4 : Vec Ideal S1x1x2048 .i32) (k : Fin 256) :
    k0_pay3 (F := Ideal) (k0_pay10 x3 x4) (k0_pay11 x3 x4) (ix2 k 0) = rowEmptyW x3 x4 k := by
  unfold k0_pay3 rowEmptyW
  rw [cmpf_apply, broadcast_apply, pay2_apply]
  rfl

/-- The body's mean block at (0, k, d). -/
theorem pay4_apply (x0 : Vec Ideal S1x2048x768 .f32) (x1 : Vec Ideal S768x128 .f32) (x2 : Vec Ideal S128 .f32)
    (x3 x4 : Vec Ideal S1x1x2048 .i32) (k : Fin 256) (d : Fin 128) :
    k0_pay4 (F := Ideal) (k0_pay6 x0 x1 x2) (k0_pay10 x3 x4) (k0_pay11 x3 x4) (ix3 0 k d) = rowMean x0 x1 x2 x3 x4 k d := by
  unfold k0_pay4 rowMean
  rw [shapeCast_ab_1ab_apply, divf_apply, broadcastTo_a1_ab_apply, select_apply, broadcast_apply, pay3_apply, pay2_apply, dotPool_eq]
  simp only [matmul]
  rw [Cert.LibPlainDot.matmul_plain_apply]
  refine congrArg₂ Ideal.div ?_ rfl
  unfold rowTotal
  refine Finset.sum_congr rfl fun s _ => ?_
  rw [truncf_apply, truncf_apply, hot_apply, pay6_apply]
  by_cases h : rowHits x3 x4 k s
  · rw [if_pos h, if_pos h, one_mul]
  · rw [if_neg h, if_neg h, zero_mul]

/-- The body's flag block at (0, 0, k). -/
theorem pay5_apply (x3 x4 : Vec Ideal S1x1x2048 .i32) (k : Fin 256) :
    k0_pay5 (F := Ideal) (k0_pay10 x3 x4) (k0_pay11 x3 x4) (ix3 0 0 k) = (rowEmptyW x3 x4 k).setWidth 32 := by
  unfold k0_pay5
  rw [shapeCast_ab_1ab_apply, extui_apply, shapeCast_a1_1a_apply, pay3_apply]

/-- The first output block holds the row's projections. -/
theorem out5_apply (x0 : Vec Ideal S1x2048x768 .f32) (x1 : Vec Ideal S768x128 .f32) (x2 : Vec Ideal S128 .f32)
    (x3 x4 : Vec Ideal S1x1x2048 .i32) (s : Fin 2048) (d : Fin 128) :
    out0_5 (F := Ideal) x0 x1 x2 x3 x4 (ix3 0 s d) = rowProj x0 x1 x2 s d := by
  unfold out0_5
  rw [View.canon_unit_zero hz3]
  simp only [View.ld_unit_zero (S := S1x2048x768) hz3, View.ld_unit_zero (S := S768x128) hz2, View.ld_unit_zero (S := S128) hz1]
  unfold k0_pay7
  rw [shapeCast_ab_1ab_apply, pay6_apply]

/-- The second output block holds the row's slot means. -/
theorem out6_apply (x0 : Vec Ideal S1x2048x768 .f32) (x1 : Vec Ideal S768x128 .f32) (x2 : Vec Ideal S128 .f32)
    (x3 x4 : Vec Ideal S1x1x2048 .i32) (k : Fin 256) (d : Fin 128) :
    out0_6 (F := Ideal) x0 x1 x2 x3 x4 (ix3 0 k d) = rowMean x0 x1 x2 x3 x4 k d := by
  unfold out0_6
  rw [View.canon_unit_zero hz3]
  simp only [View.ld_unit_zero (S := S1x2048x768) hz3, View.ld_unit_zero (S := S768x128) hz2, View.ld_unit_zero (S := S128) hz1,
    View.ld_unit_zero (S := S1x1x2048) hz3]
  exact pay4_apply x0 x1 x2 x3 x4 k d

/-- The third output block holds the row's empty flags, widened to 32 bits. -/
theorem out7_apply (x0 : Vec Ideal S1x2048x768 .f32) (x1 : Vec Ideal S768x128 .f32) (x2 : Vec Ideal S128 .f32)
    (x3 x4 : Vec Ideal S1x1x2048 .i32) (k : Fin 256) :
    out0_7 (F := Ideal) x0 x1 x2 x3 x4 (ix3 0 0 k) = (rowEmptyW x3 x4 k).setWidth 32 := by
  unfold out0_7
  rw [View.canon_unit_zero hz3]
  simp only [View.ld_unit_zero (S := S1x1x2048) hz3]
  exact pay5_apply x3 x4 k

end Cert.KernelIdeal.Body

end
-- ==== Proof.KernelValue.lean ====
/-
  From one grid point's blocks to the whole arrays. Grid point t handles batch row t: its input blocks are row t of the
  hidden vectors and of the two id arrays (each reshaped with a unit middle axis before the launch), the whole matrix and
  the whole bias; its three output blocks are row t of the projections, of the slot means and of the empty flags. The
  sixteen points' blocks tile each output array, so each array ends holding the specification's function of the argument
  arrays; the lines after the launch reshape the means and turn the widened flags back into one-bit words.
-/
import proofs.«430442_j6803228197089_3_alg».proof.Proof.BodyValue
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.PoolValue

open Cert.KernelIdeal Cert.KernelIdeal.Gen Cert.KernelIdeal.Body Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

/-- The batch row a grid point handles: the point's own number, below 16. -/
def rowT (t : Fin cfg0.N) : Fin 16 := ⟨t.val, lt_of_lt_of_eq (t.isLt : t.val < grid0.N) N_0⟩

/-- The printed index maps, decided over the sixteen points: every window that moves sits at block t on its first axis
    and at block 0 on the others; the matrix and the bias stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## The arrays as the launch finds them -/

/-- The first id array reaches the launch reshaped: entry (b, 0, s) is entry (b, s) of the argument. -/
theorem V_v0_apply (c : Dev nD) (b : Fin 16) (s : Fin 2048) :
    (V m c main_v0 : S16x1x2048.Idx → BitVec 32) (ix3 b 0 s) = (m ((c.tc : Thread nD τ).loc main_arg2) : S16x2048.Idx → BitVec 32) (ix2 b s) := by
  have e : (V m c main_v0 : S16x1x2048.Idx → BitVec 32)
      = shapeCast S16x1x2048 (m ((c.tc : Thread nD τ).loc main_arg2) : S16x2048.Idx → BitVec 32) shapeCasts_S16x2048_S16x1x2048 := by
    show StableHlo.after hostOps0 (fun b => m (c, b)) (Proc.devRef .tc main_v0) = _
    after_results; rfl
  rw [e]
  refine shapeCast_apply _ _ _ _ ?_
  show (S16x2048.rowMajor (ix2 b s)).val = (S16x1x2048.rowMajor (ix3 b 0 s)).val
  rw [Shape.rowMajor_val_two, Shape.rowMajor_val_three]
  show b.val * 2048 + s.val = (b.val * 1 + 0) * 2048 + s.val
  omega

/-- The second id array likewise. -/
theorem V_v1_apply (c : Dev nD) (b : Fin 16) (s : Fin 2048) :
    (V m c main_v1 : S16x1x2048.Idx → BitVec 32) (ix3 b 0 s) = (m ((c.tc : Thread nD τ).loc main_arg3) : S16x2048.Idx → BitVec 32) (ix2 b s) := by
  have e : (V m c main_v1 : S16x1x2048.Idx → BitVec 32)
      = shapeCast S16x1x2048 (m ((c.tc : Thread nD τ).loc main_arg3) : S16x2048.Idx → BitVec 32) shapeCasts_S16x2048_S16x1x2048 := by
    show StableHlo.after hostOps0 (fun b => m (c, b)) (Proc.devRef .tc main_v1) = _
    after_results; rfl
  rw [e]
  refine shapeCast_apply _ _ _ _ ?_
  show (S16x2048.rowMajor (ix2 b s)).val = (S16x1x2048.rowMajor (ix3 b 0 s)).val
  rw [Shape.rowMajor_val_two, Shape.rowMajor_val_three]
  show b.val * 2048 + s.val = (b.val * 1 + 0) * 2048 + s.val
  omega

/-! ## Each input block read at an entry -/

/-- The hidden vectors' block at point t is row t of the argument. -/
theorem iblk0_apply (c : Dev nD) (t : Fin cfg0.N) (s : Fin 2048) (k : Fin 768) :
    (iblk m c 0 t : Vec Ideal S1x2048x768 .f32) (ix3 0 s k)
      = (m ((c.tc : Thread nD τ).loc main_arg1) : S16x2048x768.Idx → EReal) (ix3 (rowT t) s k) := by
  obtain ⟨e0, e1, e2, -⟩ := idx_facts t
  unfold iblk
  rw [View.read_apply]
  show V m c main_arg1 _ = _
  rw [V_main_arg1 m c]
  congr 1
  funext a
  apply Fin.ext
  match a with
  | ⟨0, _⟩ => show win0_0.index t (0 : Fin 3) * 1 + 1 * 0 = t.val; rw [e0]; omega
  | ⟨1, _⟩ => show win0_0.index t (1 : Fin 3) * 2048 + 1 * s.val = s.val; rw [e1]; omega
  | ⟨2, _⟩ => show win0_0.index t (2 : Fin 3) * 768 + 1 * k.val = k.val; rw [e2]; omega

/-- The matrix's block is the whole matrix at every point. -/
theorem iblk1_apply (c : Dev nD) (t : Fin cfg0.N) (k : Fin 768) (d : Fin 128) :
    (iblk m c 1 t : Vec Ideal S768x128 .f32) (ix2 k d)
      = (m ((c.tc : Thread nD τ).loc main_arg4) : S768x128.Idx → EReal) (ix2 k d) := by
  obtain ⟨-, -, -, e0, e1, -⟩ := idx_facts t
  unfold iblk
  rw [View.read_apply]
  show V m c main_arg4 _ = _
  rw [V_main_arg4 m c]
  congr 1
  funext a
  apply Fin.ext
  match a with
  | ⟨0, _⟩ => show win0_1.index t (0 : Fin 2) * 768 + 1 * k.val = k.val; rw [e0]; omega
  | ⟨1, _⟩ => show win0_1.index t (1 : Fin 2) * 128 + 1 * d.val = d.val; rw [e1]; omega

/-- The bias's block is the whole bias at every point. -/
theorem iblk2_apply (c : Dev nD) (t : Fin cfg0.N) (d : Fin 128) :
    (iblk m c 2 t : Vec Ideal S128 .f32) (ix1 d)
      = (m ((c.tc : Thread nD τ).loc main_arg5) : S128.Idx → EReal) (ix1 d) := by
  obtain ⟨-, -, -, -, -, e0, -⟩ := idx_facts t
  unfold iblk
  rw [View.read_apply]
  show V m c main_arg5 _ = _
  rw [V_main_arg5 m c]
  congr 1
  funext a
  apply Fin.ext
  match a with
  | ⟨0, _⟩ => show win0_2.index t (0 : Fin 1) * 128 + 1 * d.val = d.val; rw [e0]; omega

/-- The first id block at point t is row t of the first id array. -/
theorem iblk3_apply (c : Dev nD) (t : Fin cfg0.N) (s : Fin 2048) :
    (iblk m c 3 t : Vec Ideal S1x1x2048 .i32) (ix3 0 0 s)
      = (m ((c.tc : Thread nD τ).loc main_arg2) : S16x2048.Idx → BitVec 32) (ix2 (rowT t) s) := by
  obtain ⟨-, -, -, -, -, -, e0, e1, e2, -⟩ := idx_facts t
  rw [← V_v0_apply m c (rowT t) s]
  unfold iblk
  rw [View.read_apply]
  show V m c main_v0 _ = V m c main_v0 _
  congr 1
  funext a
  apply Fin.ext
  match a with
  | ⟨0, _⟩ => show win0_3.index t (0 : Fin 3) * 1 + 1 * 0 = t.val; rw [e0]; omega
  | ⟨1, _⟩ => show win0_3.index t (1 : Fin 3) * 1 + 1 * 0 = 0; rw [e1]
  | ⟨2, _⟩ => show win0_3.index t (2 : Fin 3) * 2048 + 1 * s.val = s.val; rw [e2]; omega

/-- The second id block at point t is row t of the second id array. -/
theorem iblk4_apply (c : Dev nD) (t : Fin cfg0.N) (s : Fin 2048) :
    (iblk m c 4 t : Vec Ideal S1x1x2048 .i32) (ix3 0 0 s)
      = (m ((c.tc : Thread nD τ).loc main_arg3) : S16x2048.Idx → BitVec 32) (ix2 (rowT t) s) := by
  obtain ⟨-, -, -, -, -, -, -, -, -, e0, e1, e2, -⟩ := idx_facts t
  rw [← V_v1_apply m c (rowT t) s]
  unfold iblk
  rw [View.read_apply]
  show V m c main_v1 _ = V m c main_v1 _
  congr 1
  funext a
  apply Fin.ext
  match a with
  | ⟨0, _⟩ => show win0_4.index t (0 : Fin 3) * 1 + 1 * 0 = t.val; rw [e0]; omega
  | ⟨1, _⟩ => show win0_4.index t (1 : Fin 3) * 1 + 1 * 0 = 0; rw [e1]
  | ⟨2, _⟩ => show win0_4.index t (2 : Fin 3) * 2048 + 1 * s.val = s.val; rw [e2]; omega

/-! ## The body's row quantities at point t are the specification's at row t -/

theorem rowProj_eq (c : Dev nD) (t : Fin cfg0.N) (s : Fin 2048) (d : Fin 128) :
    rowProj (iblk m c 0 t) (iblk m c 1 t) (iblk m c 2 t) s d
      = proj (m ((c.tc : Thread nD τ).loc main_arg1)) (m ((c.tc : Thread nD τ).loc main_arg4)) (m ((c.tc : Thread nD τ).loc main_arg5)) (rowT t) s d := by
  unfold rowProj proj
  rw [iblk2_apply]
  congr 1
  refine Finset.sum_congr rfl fun k _ => ?_
  rw [iblk0_apply, iblk1_apply]

theorem rowHits_iff (c : Dev nD) (t : Fin cfg0.N) (k : Fin 256) (s : Fin 2048) :
    rowHits (iblk m c 3 t) (iblk m c 4 t) k s
      ↔ hits (m ((c.tc : Thread nD τ).loc main_arg2)) (m ((c.tc : Thread nD τ).loc main_arg3)) (rowT t) k s := by
  unfold rowHits hits
  rw [iblk3_apply, iblk4_apply]

theorem rowCount_eq (c : Dev nD) (t : Fin cfg0.N) (k : Fin 256) :
    rowCount (iblk m c 3 t) (iblk m c 4 t) k
      = Pool.count (m ((c.tc : Thread nD τ).loc main_arg2)) (m ((c.tc : Thread nD τ).loc main_arg3)) (rowT t) k := by
  unfold rowCount Pool.count
  exact Finset.sum_congr rfl fun s _ => if_congr (rowHits_iff m c t k s) rfl rfl

theorem rowTotal_eq (c : Dev nD) (t : Fin cfg0.N) (k : Fin 256) (d : Fin 128) :
    rowTotal (iblk m c 0 t) (iblk m c 1 t) (iblk m c 2 t) (iblk m c 3 t) (iblk m c 4 t) k d
      = total (m ((c.tc : Thread nD τ).loc main_arg1)) (m ((c.tc : Thread nD τ).loc main_arg4)) (m ((c.tc : Thread nD τ).loc main_arg5))
          (m ((c.tc : Thread nD τ).loc main_arg2)) (m ((c.tc : Thread nD τ).loc main_arg3)) (rowT t) k d := by
  unfold rowTotal total
  exact Finset.sum_congr rfl fun s _ => if_congr (rowHits_iff m c t k s) (rowProj_eq m c t s d) rfl

theorem rowEmptyW_eq (c : Dev nD) (t : Fin cfg0.N) (k : Fin 256) :
    rowEmptyW (iblk m c 3 t) (iblk m c 4 t) k
      = emptyW (m ((c.tc : Thread nD τ).loc main_arg2)) (m ((c.tc : Thread nD τ).loc main_arg3)) (rowT t) k := by
  unfold rowEmptyW emptyW
  rw [rowCount_eq]

theorem rowMean_eq (c : Dev nD) (t : Fin cfg0.N) (k : Fin 256) (d : Fin 128) :
    rowMean (iblk m c 0 t) (iblk m c 1 t) (iblk m c 2 t) (iblk m c 3 t) (iblk m c 4 t) k d
      = mean (m ((c.tc : Thread nD τ).loc main_arg1)) (m ((c.tc : Thread nD τ).loc main_arg4)) (m ((c.tc : Thread nD τ).loc main_arg5))
          (m ((c.tc : Thread nD τ).loc main_arg2)) (m ((c.tc : Thread nD τ).loc main_arg3)) (rowT t) k d := by
  unfold rowMean mean
  rw [rowTotal_eq, rowEmptyW_eq, rowCount_eq]

/-! ## The three arrays the launch writes -/

/-- The projections' array. -/
def arrProj (c : Dev nD) : S16x2048x128.Idx → EReal :=
  Gproj (m ((c.tc : Thread nD τ).loc main_arg1)) (m ((c.tc : Thread nD τ).loc main_arg4)) (m ((c.tc : Thread nD τ).loc main_arg5))

/-- The means' array, by row, slot and feature. -/
def arrMean (c : Dev nD) : S16x256x128.Idx → EReal := fun i =>
  mean (m ((c.tc : Thread nD τ).loc main_arg1)) (m ((c.tc : Thread nD τ).loc main_arg4)) (m ((c.tc : Thread nD τ).loc main_arg5))
    (m ((c.tc : Thread nD τ).loc main_arg2)) (m ((c.tc : Thread nD τ).loc main_arg3)) (i 0) (i 1) (i 2)

/-- The flags' array, by row and slot, each flag widened to 32 bits. -/
def arrFlag (c : Dev nD) : S16x1x256.Idx → BitVec 32 := fun i =>
  (emptyW (m ((c.tc : Thread nD τ).loc main_arg2)) (m ((c.tc : Thread nD τ).loc main_arg3)) (i 0) (i 2)).setWidth 32

/-- Entry (0, s, d) of point t's block of the projections' array is entry (t, s, d) of the array. -/
theorem emb5 (t : Fin cfg0.N) (s : Fin 2048) (d : Fin 128) :
    (((cfg0.win 5).blk t).view.emb (ix3 0 s d) : S16x2048x128.Idx) = ix3 (rowT t) s d := by
  obtain ⟨-, -, -, -, -, -, -, -, -, -, -, -, e0, e1, e2, -⟩ := idx_facts t
  funext a
  apply Fin.ext
  match a with
  | ⟨0, _⟩ => show win0_5.index t (0 : Fin 3) * 1 + 1 * 0 = t.val; rw [e0]; omega
  | ⟨1, _⟩ => show win0_5.index t (1 : Fin 3) * 2048 + 1 * s.val = s.val; rw [e1]; omega
  | ⟨2, _⟩ => show win0_5.index t (2 : Fin 3) * 128 + 1 * d.val = d.val; rw [e2]; omega

theorem emb6 (t : Fin cfg0.N) (k : Fin 256) (d : Fin 128) :
    (((cfg0.win 6).blk t).view.emb (ix3 0 k d) : S16x256x128.Idx) = ix3 (rowT t) k d := by
  obtain ⟨-, -, -, -, -, -, -, -, -, -, -, -, -, -, -, e0, e1, e2, -⟩ := idx_facts t
  funext a
  apply Fin.ext
  match a with
  | ⟨0, _⟩ => show win0_6.index t (0 : Fin 3) * 1 + 1 * 0 = t.val; rw [e0]; omega
  | ⟨1, _⟩ => show win0_6.index t (1 : Fin 3) * 256 + 1 * k.val = k.val; rw [e1]; omega
  | ⟨2, _⟩ => show win0_6.index t (2 : Fin 3) * 128 + 1 * d.val = d.val; rw [e2]; omega

theorem emb7 (t : Fin cfg0.N) (k : Fin 256) :
    (((cfg0.win 7).blk t).view.emb (ix3 0 0 k) : S16x1x256.Idx) = ix3 (rowT t) 0 k := by
  obtain ⟨-, -, -, -, -, -, -, -, -, -, -, -, -, -, -, -, -, -, e0, e1, e2⟩ := idx_facts t
  funext a
  apply Fin.ext
  match a with
  | ⟨0, _⟩ => show win0_7.index t (0 : Fin 3) * 1 + 1 * 0 = t.val; rw [e0]; omega
  | ⟨1, _⟩ => show win0_7.index t (1 : Fin 3) * 1 + 1 * 0 = 0; rw [e1]
  | ⟨2, _⟩ => show win0_7.index t (2 : Fin 3) * 256 + 1 * k.val = k.val; rw [e2]; omega

/-- What point t writes back to the projections' array is block t of it. -/
theorem flushed5_eq (c : Dev nD) (t : Fin cfg0.N) :
    (dats m 0 c).flushed 5 t = ((cfg0.win 5).blk t).view.read (Elt Ideal) (arrProj m c) := by
  show (cfg0.win 5).cut (grid0.coords t) ((dats m 0 c).after 5 t) = _
  rw [after0_5]
  funext j
  obtain ⟨z, s, d, rfl⟩ : ∃ (z : Fin 1) (s : Fin 2048) (d : Fin 128), j = ix3 z s d := ⟨j 0, j 1, j 2, eq_ix3 j⟩
  obtain rfl : z = 0 := Subsingleton.elim _ _
  show out0_5 (F := Ideal) (iblk m c 0 t) (iblk m c 1 t) (iblk m c 2 t) (iblk m c 3 t) (iblk m c 4 t) (ix3 0 s d)
    = arrProj m c (((cfg0.win 5).blk t).view.emb (ix3 0 s d))
  rw [emb5]
  exact (out5_apply _ _ _ _ _ s d).trans (rowProj_eq m c t s d)

/-- What point t writes back to the means' array is block t of it. -/
theorem flushed6_eq (c : Dev nD) (t : Fin cfg0.N) :
    (dats m 0 c).flushed 6 t = ((cfg0.win 6).blk t).view.read (Elt Ideal) (arrMean m c) := by
  show (cfg0.win 6).cut (grid0.coords t) ((dats m 0 c).after 6 t) = _
  rw [after0_6]
  funext j
  obtain ⟨z, k, d, rfl⟩ : ∃ (z : Fin 1) (k : Fin 256) (d : Fin 128), j = ix3 z k d := ⟨j 0, j 1, j 2, eq_ix3 j⟩
  obtain rfl : z = 0 := Subsingleton.elim _ _
  show out0_6 (F := Ideal) (iblk m c 0 t) (iblk m c 1 t) (iblk m c 2 t) (iblk m c 3 t) (iblk m c 4 t) (ix3 0 k d)
    = arrMean m c (((cfg0.win 6).blk t).view.emb (ix3 0 k d))
  rw [emb6]
  exact (out6_apply _ _ _ _ _ k d).trans (rowMean_eq m c t k d)

/-- What point t writes back to the flags' array is block t of it. -/
theorem flushed7_eq (c : Dev nD) (t : Fin cfg0.N) :
    (dats m 0 c).flushed 7 t = ((cfg0.win 7).blk t).view.read (Elt Ideal) (arrFlag m c) := by
  show (cfg0.win 7).cut (grid0.coords t) ((dats m 0 c).after 7 t) = _
  rw [after0_7]
  funext j
  obtain ⟨z, z', k, rfl⟩ : ∃ (z : Fin 1) (z' : Fin 1) (k : Fin 256), j = ix3 z z' k := ⟨j 0, j 1, j 2, eq_ix3 j⟩
  obtain rfl : z = 0 := Subsingleton.elim _ _
  obtain rfl : z' = 0 := Subsingleton.elim _ _
  show out0_7 (F := Ideal) (iblk m c 0 t) (iblk m c 1 t) (iblk m c 2 t) (iblk m c 3 t) (iblk m c 4 t) (ix3 0 0 k)
    = arrFlag m c (((cfg0.win 7).blk t).view.emb (ix3 0 0 k))
  rw [emb7]
  refine (out7_apply _ _ _ _ _ k).trans ?_
  show (rowEmptyW (iblk m c 3 t) (iblk m c 4 t) k).setWidth 32 = (emptyW _ _ (rowT t) k).setWidth 32
  rw [rowEmptyW_eq]

/-! ## The sixteen blocks tile each array -/

/-- The grid point that handles batch row b. -/
def pointOf (b : Fin 16) : Fin cfg0.N := ⟨b.val, lt_of_lt_of_eq b.isLt N_0.symm⟩

theorem mem_blk5 (t : Fin cfg0.N) (i : S16x2048x128.Idx) :
    i ∈ ((cfg0.win 5).blk t).view.set ↔ ∀ a : Fin 3, win0_5.index t a * S1x2048x128.size a ≤ (i a).val ∧ (i a).val < win0_5.index t a * S1x2048x128.size a + S1x2048x128.size a := by
  show i ∈ ((View.whole main_v2_0).slice (win0_5.rect t)).set ↔ _
  rw [View.set_slice_whole, Rect.mem_set_unit]
  exact Iff.rfl

theorem mem_blk6 (t : Fin cfg0.N) (i : S16x256x128.Idx) :
    i ∈ ((cfg0.win 6).blk t).view.set ↔ ∀ a : Fin 3, win0_6.index t a * S1x256x128.size a ≤ (i a).val ∧ (i a).val < win0_6.index t a * S1x256x128.size a + S1x256x128.size a := by
  show i ∈ ((View.whole main_v2_1).slice (win0_6.rect t)).set ↔ _
  rw [View.set_slice_whole, Rect.mem_set_unit]
  exact Iff.rfl

theorem mem_blk7 (t : Fin cfg0.N) (i : S16x1x256.Idx) :
    i ∈ ((cfg0.win 7).blk t).view.set ↔ ∀ a : Fin 3, win0_7.index t a * S1x1x256.size a ≤ (i a).val ∧ (i a).val < win0_7.index t a * S1x1x256.size a + S1x1x256.size a := by
  show i ∈ ((View.whole main_v2_2).slice (win0_7.rect t)).set ↔ _
  rw [View.set_slice_whole, Rect.mem_set_unit]
  exact Iff.rfl

/-- Every entry of the projections' array lies in the block of the point that handles its row. -/
theorem cover5 (i : S16x2048x128.Idx) : ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 128 := (i 2).isLt
  refine ⟨pointOf ⟨(i 0).val, h0⟩, flush0_5 _, ?_⟩
  obtain ⟨-, -, -, -, -, -, -, -, -, -, -, -, e0, e1, e2, -⟩ := idx_facts (pointOf ⟨(i 0).val, h0⟩)
  rw [mem_blk5]
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 2048 ≤ (i 1).val ∧ (i 1).val < win0_5.index _ (1 : Fin 3) * 2048 + 2048; rw [e1]; omega
  | ⟨2, _⟩ => show win0_5.index _ (2 : Fin 3) * 128 ≤ (i 2).val ∧ (i 2).val < win0_5.index _ (2 : Fin 3) * 128 + 128; rw [e2]; omega

theorem cover6 (i : S16x256x128.Idx) : ∃ t : Fin cfg0.N, (cfg0.win 6).flush t = true ∧ i ∈ ((cfg0.win 6).blk t).view.set := by
  have h0 : (i 0).val < 16 := (i 0).isLt
  have h1 : (i 1).val < 256 := (i 1).isLt
  have h2 : (i 2).val < 128 := (i 2).isLt
  refine ⟨pointOf ⟨(i 0).val, h0⟩, flush0_6 _, ?_⟩
  obtain ⟨-, -, -, -, -, -, -, -, -, -, -, -, -, -, -, e0, e1, e2, -⟩ := idx_facts (pointOf ⟨(i 0).val, h0⟩)
  rw [mem_blk6]
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 256 ≤ (i 1).val ∧ (i 1).val < win0_6.index _ (1 : Fin 3) * 256 + 256; rw [e1]; omega
  | ⟨2, _⟩ => show win0_6.index _ (2 : Fin 3) * 128 ≤ (i 2).val ∧ (i 2).val < win0_6.index _ (2 : Fin 3) * 128 + 128; rw [e2]; omega

theorem cover7 (i : S16x1x256.Idx) : ∃ t : Fin cfg0.N, (cfg0.win 7).flush t = true ∧ i ∈ ((cfg0.win 7).blk t).view.set := by
  have h0 : (i 0).val < 16 := (i 0).isLt
  have h1 : (i 1).val < 1 := (i 1).isLt
  have h2 : (i 2).val < 256 := (i 2).isLt
  refine ⟨pointOf ⟨(i 0).val, h0⟩, flush0_7 _, ?_⟩
  obtain ⟨-, -, -, -, -, -, -, -, -, -, -, -, -, -, -, -, -, -, e0, e1, e2⟩ := idx_facts (pointOf ⟨(i 0).val, h0⟩)
  rw [mem_blk7]
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 256 ≤ (i 2).val ∧ (i 2).val < win0_7.index _ (2 : Fin 3) * 256 + 256; rw [e2]; omega

/-- So the three arrays end holding the three functions. -/
theorem final5 (c : Dev nD) : (dats m 0 c).arrAt 5 cfg0.N = arrProj m c :=
  (dats m 0 c).arrAt_eq_of_cover 5 (arrProj m c) (fun t _ => flushed5_eq m c t) cover5

theorem final6 (c : Dev nD) : (dats m 0 c).arrAt 6 cfg0.N = arrMean m c :=
  (dats m 0 c).arrAt_eq_of_cover 6 (arrMean m c) (fun t _ => flushed6_eq m c t) cover6

theorem final7 (c : Dev nD) : (dats m 0 c).arrAt 7 cfg0.N = arrFlag m c :=
  (dats m 0 c).arrAt_eq_of_cover 7 (arrFlag m c) (fun t _ => flushed7_eq m c t) cover7

/-! ## The lines after the launch -/

/-- A one-bit word widened to 32 bits differs from zero exactly when it is 1: comparing the widened flag with zero
    gives the flag back. -/
theorem ne_zero_setWidth (w : BitVec 1) : IntOp.cmpi .ne (w.setWidth 32) 0#32 = w := by
  rcases BitVec.eq_zero_or_eq_one w with h | h <;> rw [h] <;> decide

/-- The first result: the means' array reshaped from (row, slot, feature) to (row, attr − 1, item − 1, feature). -/
theorem tail_v3 (c : Dev nD) :
    (Pipeline.afterTail₀ cfgs (dats m) 0 (V0 m) [hostOps1] c main_v3 : S16x8x32x128.Idx → EReal)
      = Gpooled (m ((c.tc : Thread nD τ).loc main_arg1)) (m ((c.tc : Thread nD τ).loc main_arg4)) (m ((c.tc : Thread nD τ).loc main_arg5))
          (m ((c.tc : Thread nD τ).loc main_arg2)) (m ((c.tc : Thread nD τ).loc main_arg3)) := by
  have e6 : (Pipeline.withArrays (cfgs 0).spec c (V0 m c) (fun w => (dats m 0 c).arrAt w (cfgs 0).N) (Proc.devRef .tc main_v2_1)
      : S16x256x128.Idx → EReal) = arrMean m c :=
    (Pipeline.withArrays_arr spec0 launch0.win.arr_inj c _ _ 6).trans (final6 m c)
  unfold Pipeline.afterTail₀
  show StableHlo.after hostOps1 _ (Proc.devRef .tc main_v3) = _
  after_results
  funext i
  obtain ⟨b, a, t, d, rfl⟩ : ∃ (b : Fin 16) (a : Fin 8) (t : Fin 32) (d : Fin 128), i = ix4 b a t d := ⟨i 0, i 1, i 2, i 3, eq_ix4 i⟩
  show shapeCast S16x8x32x128 (Pipeline.withArrays (cfgs 0).spec c (V0 m c) (fun w => (dats m 0 c).arrAt w (cfgs 0).N) (Proc.devRef .tc main_v2_1)
      : S16x256x128.Idx → EReal) shapeCasts_S16x256x128_S16x8x32x128 (ix4 b a t d) = _
  rw [e6]
  refine (shapeCast_apply (arrMean m c) shapeCasts_S16x256x128_S16x8x32x128 (ix4 b a t d) (ix3 b (slotOf a t) d) ?_).trans rfl
  show (S16x256x128.rowMajor (ix3 b (slotOf a t) d)).val = (S16x8x32x128.rowMajor (ix4 b a t d)).val
  rw [Shape.rowMajor_val_three, Shape.rowMajor_val_four]
  show (b.val * 256 + (a.val * 32 + t.val)) * 128 + d.val = ((b.val * 8 + a.val) * 32 + t.val) * 128 + d.val
  omega

/-- The second result: the flags' array reshaped to (row, attr − 1, item − 1) and each widened flag compared with zero. -/
theorem tail_v7 (c : Dev nD) :
    (Pipeline.afterTail₀ cfgs (dats m) 0 (V0 m) [hostOps1] c main_v7 : S16x8x32.Idx → BitVec 1)
      = Gempty (m ((c.tc : Thread nD τ).loc main_arg2)) (m ((c.tc : Thread nD τ).loc main_arg3)) := by
  have e7 : (Pipeline.withArrays (cfgs 0).spec c (V0 m c) (fun w => (dats m 0 c).arrAt w (cfgs 0).N) (Proc.devRef .tc main_v2_2)
      : S16x1x256.Idx → BitVec 32) = arrFlag m c :=
    (Pipeline.withArrays_arr spec0 launch0.win.arr_inj c _ _ 7).trans (final7 m c)
  unfold Pipeline.afterTail₀
  show StableHlo.after hostOps1 _ (Proc.devRef .tc main_v7) = _
  after_results
  funext i
  obtain ⟨b, a, t, rfl⟩ : ∃ (b : Fin 16) (a : Fin 8) (t : Fin 32), i = ix3 b a t := ⟨i 0, i 1, i 2, eq_ix3 i⟩
  show IntOp.cmpi .ne (shapeCast S16x8x32 (Pipeline.withArrays (cfgs 0).spec c (V0 m c) (fun w => (dats m 0 c).arrAt w (cfgs 0).N) (Proc.devRef .tc main_v2_2)
      : S16x1x256.Idx → BitVec 32) shapeCasts_S16x1x256_S16x8x32 (ix3 b a t)) 0#32 = _
  rw [e7]
  have hr : shapeCast S16x8x32 (arrFlag m c) shapeCasts_S16x1x256_S16x8x32 (ix3 b a t) = arrFlag m c (ix3 b 0 (slotOf a t)) := by
    refine shapeCast_apply (arrFlag m c) shapeCasts_S16x1x256_S16x8x32 (ix3 b a t) (ix3 b 0 (slotOf a t)) ?_
    show (S16x1x256.rowMajor (ix3 b 0 (slotOf a t))).val = (S16x8x32.rowMajor (ix3 b a t)).val
    rw [Shape.rowMajor_val_three, Shape.rowMajor_val_three]
    show (b.val * 1 + 0) * 256 + (a.val * 32 + t.val) = (b.val * 8 + a.val) * 32 + t.val
    omega
  rw [hr]
  exact ne_zero_setWidth _

/-! ## The run, read -/

/-- Every weakly fair execution of the kernel's program ends with its three results at the specification's three
    functions of the argument arrays, the arguments unchanged. -/
theorem run : θ_run defs (onTc (τ := τ) (main (F := Ideal))) ⟨m, fun _ => 0, ρ⟩ fun r => ∀ c : Dev nD,
      r.2.mem ((c.tc : Thread nD τ).loc main_v3) = Gpooled (m ((c.tc : Thread nD τ).loc main_arg1)) (m ((c.tc : Thread nD τ).loc main_arg4)) (m ((c.tc : Thread nD τ).loc main_arg5)) (m ((c.tc : Thread nD τ).loc main_arg2)) (m ((c.tc : Thread nD τ).loc main_arg3))
      ∧ r.2.mem ((c.tc : Thread nD τ).loc main_v7) = Gempty (m ((c.tc : Thread nD τ).loc main_arg2)) (m ((c.tc : Thread nD τ).loc main_arg3))
      ∧ r.2.mem ((c.tc : Thread nD τ).loc main_v2_0) = Gproj (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v3 (Pipeline.mem_restRefs_of main_v3 (by decide) (by decide))).trans (tail_v3 m c),
       ((h c).2 main_v7 (Pipeline.mem_restRefs_of main_v7 (by decide) (by decide))).trans (tail_v7 m c),
       ((h c).1 5).trans (final5 m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).1 1).trans (((dats m 0 c).arrAt_in 1 rfl _).trans ((A_eq m c 1).trans (V_main_arg4 m c))),
       ((h c).1 2).trans (((dats m 0 c).arrAt_in 2 rfl _).trans ((A_eq m c 2).trans (V_main_arg5 m c)))⟩)
    (run_main m ρ)

end Cert.KernelIdeal.PoolValue

end
-- ==== Proof.SlotLaw.lean ====
/-
  The arithmetic of slots. A token's slot among all rows' slots is its row's offset b · 256 plus its slot within the
  row, and out-of-range tokens go to 4096; so the tokens that land on slot k of row b0 are exactly the tokens of row b0
  whose slot within the row is k. And a sum over all 16 · 2048 tokens, numbered row by row, of terms that vanish outside
  one row is that row's sum.
-/
import proofs.«430442_j6803228197089_3_alg».proof.Proof.Spec

noncomputable section

open scoped BigOperators

namespace Cert.Pool

open Idealize.ShloMosaic Idealize.ShloMosaic.ValueIdx

/-- The row of token number n, the tokens numbered row by row. -/
def rowOf (n : Fin 32768) : Fin 16 := ⟨n.val / 2048, by have := n.isLt; omega⟩
/-- Its place in the row. -/
def colOf (n : Fin 32768) : Fin 2048 := ⟨n.val % 2048, Nat.mod_lt _ (by decide)⟩

/-- A one-bit word made from a truth value is 1 exactly when the value is true. -/
theorem ofBool_one (c : Bool) : BitVec.ofBool c = 1#1 ↔ c = true := by cases c <;> decide

/-- The bitwise and of two one-bit words made from truth values is the word of their conjunction. -/
theorem ofBool_and (c d : Bool) : BitVec.ofBool c &&& BitVec.ofBool d = BitVec.ofBool (c && d) := by
  cases c <;> cases d <;> decide

/-- In range, read on the signed values: 1 ≤ a ≤ 8 and 1 ≤ it ≤ 32. -/
theorem okW_iff (a it : BitVec 32) :
    okW a it = 1#1 ↔ (1 ≤ a.toInt ∧ a.toInt ≤ 8 ∧ 1 ≤ it.toInt ∧ it.toInt ≤ 32) := by
  unfold okW IntOp.andi IntOp.cmpi
  simp only [ofBool_and, ofBool_one, Bool.and_eq_true, BitVec.sle_iff_toInt_le]
  have h1 : (1#32).toInt = 1 := by decide
  have h8 : (8#32).toInt = 8 := by decide
  have h32 : (32#32).toInt = 32 := by decide
  rw [h1, h8, h32]
  tauto

/-- A word whose signed value lies between 1 and a small bound n has its unsigned value in the same interval:
    a signed value that is positive is the unsigned value itself. -/
theorem toNat_of_toInt_range (a : BitVec 32) (n : ℕ) (hn : n < 2147483648) (h1 : 1 ≤ a.toInt) (h2 : a.toInt ≤ (n : ℤ)) :
    1 ≤ a.toNat ∧ a.toNat ≤ n := by
  have hlt := a.isLt
  rw [BitVec.toInt_eq_toNat_cond] at h1 h2
  split at h1 <;> omega

/-- In range, read on the unsigned values. -/
theorem okW_nat (a it : BitVec 32) (h : okW a it = 1#1) :
    1 ≤ a.toNat ∧ a.toNat ≤ 8 ∧ 1 ≤ it.toNat ∧ it.toNat ≤ 32 := by
  obtain ⟨ha1, ha8, hi1, hi32⟩ := (okW_iff a it).mp h
  obtain ⟨p1, p2⟩ := toNat_of_toInt_range a 8 (by omega) ha1 (by exact_mod_cast ha8)
  obtain ⟨q1, q2⟩ := toNat_of_toInt_range it 32 (by omega) hi1 (by exact_mod_cast hi32)
  exact ⟨p1, p2, q1, q2⟩

/-- With both ids in range nothing wraps around: the slot within the row is (a − 1) · 32 + (it − 1) as a number. -/
theorem slot_toNat (a it : BitVec 32) (ha1 : 1 ≤ a.toNat) (ha8 : a.toNat ≤ 8) (hi1 : 1 ≤ it.toNat) (hi32 : it.toNat ≤ 32) :
    ((a - 1#32) * 32#32 + (it - 1#32)).toNat = (a.toNat - 1) * 32 + (it.toNat - 1) := by
  simp only [BitVec.toNat_add, BitVec.toNat_mul, BitVec.toNat_sub, BitVec.toNat_ofNat]
  omega

/-- Likewise the slot among all rows' slots is b · 256 + (a − 1) · 32 + (it − 1) as a number. -/
theorem gslot_toNat (b : Fin 16) (a it : BitVec 32) (ha1 : 1 ≤ a.toNat) (ha8 : a.toNat ≤ 8) (hi1 : 1 ≤ it.toNat)
    (hi32 : it.toNat ≤ 32) :
    ((BitVec.ofNat 32 b.val * 8#32 + (a - 1#32)) * 32#32 + (it - 1#32)).toNat
      = b.val * 256 + ((a.toNat - 1) * 32 + (it.toNat - 1)) := by
  have hb := b.isLt
  simp only [BitVec.toNat_add, BitVec.toNat_mul, BitVec.toNat_sub, BitVec.toNat_ofNat]
  omega

/-- The slot within the row of a token in range. -/
theorem slotW_ok (a it : BitVec 32) (h : okW a it = 1#1) : slotW a it = (a - 1#32) * 32#32 + (it - 1#32) := by
  unfold slotW Scalar.select IntOp.addi IntOp.muli IntOp.subi
  exact if_pos h

/-- The slot within the row of a token out of range: the word of all ones. -/
theorem slotW_not (a it : BitVec 32) (h : ¬ okW a it = 1#1) : slotW a it = 4294967295#32 := by
  unfold slotW Scalar.select
  exact if_neg h

/-- The slot among all rows' slots of a token in range. -/
theorem gslotW_ok (b : Fin 16) (a it : BitVec 32) (h : okW a it = 1#1) :
    gslotW b a it = (BitVec.ofNat 32 b.val * 8#32 + (a - 1#32)) * 32#32 + (it - 1#32) := by
  unfold gslotW Scalar.select IntOp.addi IntOp.muli IntOp.subi
  exact if_pos h

/-- The slot among all rows' slots of a token out of range: 4096, one past the last. -/
theorem gslotW_not (b : Fin 16) (a it : BitVec 32) (h : ¬ okW a it = 1#1) : gslotW b a it = 4096#32 := by
  unfold gslotW Scalar.select
  exact if_neg h

/-- The word of all ones is the word of no number below 256. -/
theorem allOnes_ne (k : Fin 256) : ¬ (4294967295#32 = BitVec.ofNat 32 k.val) := by
  intro h
  have h' := congrArg BitVec.toNat h
  have hk := k.isLt
  simp only [BitVec.toNat_ofNat] at h'
  omega

/-- A token with a slot below 256 has both ids in range. -/
theorem ok_of_slot (a it : BitVec 32) (k : Fin 256) (h : slotW a it = BitVec.ofNat 32 k.val) : okW a it = 1#1 := by
  by_contra hok
  rw [slotW_not a it hok] at h
  exact allOnes_ne k h

/-- A token of row b lands on slot k of row b0, read as a signed number, exactly when b is b0 and its slot within the row is k. -/
theorem gslot_iff (b b0 : Fin 16) (k : Fin 256) (a it : BitVec 32) :
    (gslotW b a it).toInt = ((b0.val * 256 + k.val : ℕ) : ℤ) ↔ (b = b0 ∧ slotW a it = BitVec.ofNat 32 k.val) := by
  have hb := b.isLt
  have hb0 := b0.isLt
  have hk := k.isLt
  by_cases hok : okW a it = 1#1
  · -- in range: both slots are plain numbers, the one within the row below 256
    obtain ⟨ha1, ha8, hi1, hi32⟩ := okW_nat a it hok
    have hsn := slot_toNat a it ha1 ha8 hi1 hi32
    have hgn := gslot_toNat b a it ha1 ha8 hi1 hi32
    rw [gslotW_ok b a it hok, slotW_ok a it hok]
    have hgi : ((BitVec.ofNat 32 b.val * 8#32 + (a - 1#32)) * 32#32 + (it - 1#32)).toInt
        = ((b.val * 256 + ((a.toNat - 1) * 32 + (it.toNat - 1)) : ℕ) : ℤ) := by
      rw [BitVec.toInt_eq_toNat_of_lt (by rw [hgn]; omega), hgn]
    rw [hgi]
    constructor
    · intro h
      have h' : b.val * 256 + ((a.toNat - 1) * 32 + (it.toNat - 1)) = b0.val * 256 + k.val := by exact_mod_cast h
      refine ⟨Fin.ext (by omega), ?_⟩
      apply BitVec.eq_of_toNat_eq
      rw [hsn, BitVec.toNat_ofNat]
      omega
    · rintro ⟨hbb, h⟩
      have h' := congrArg BitVec.toNat h
      rw [hsn, BitVec.toNat_ofNat] at h'
      have hbv : b.val = b0.val := by rw [hbb]
      have : b.val * 256 + ((a.toNat - 1) * 32 + (it.toNat - 1)) = b0.val * 256 + k.val := by omega
      exact_mod_cast this
  · -- out of range: 4096 is past every slot, and the word of all ones is no slot
    rw [gslotW_not b a it hok, slotW_not a it hok]
    have h4096 : (4096#32).toInt = 4096 := by decide
    rw [h4096]
    constructor
    · intro h
      exfalso
      have h' : (4096 : ℕ) = b0.val * 256 + k.val := by exact_mod_cast h
      omega
    · rintro ⟨_, h⟩
      exact absurd h (allOnes_ne k)

/-- Tokens numbered row by row are the pairs of a row and a place in it. -/
def tokEquiv : Fin 16 × Fin 2048 ≃ Fin 32768 where
  toFun x := ⟨x.1.val * 2048 + x.2.val, by have := x.1.isLt; have := x.2.isLt; omega⟩
  invFun n := (rowOf n, colOf n)
  left_inv x := by
    obtain ⟨b, s⟩ := x
    have hb := b.isLt
    have hs := s.isLt
    apply Prod.ext
    · apply Fin.ext
      show (b.val * 2048 + s.val) / 2048 = b.val
      omega
    · apply Fin.ext
      show (b.val * 2048 + s.val) % 2048 = s.val
      omega
  right_inv n := by
    apply Fin.ext
    show n.val / 2048 * 2048 + n.val % 2048 = n.val
    omega

theorem rowOf_tokEquiv (b : Fin 16) (s : Fin 2048) : rowOf (tokEquiv (b, s)) = b :=
  congrArg Prod.fst (tokEquiv.left_inv (b, s))

theorem colOf_tokEquiv (b : Fin 16) (s : Fin 2048) : colOf (tokEquiv (b, s)) = s :=
  congrArg Prod.snd (tokEquiv.left_inv (b, s))

/-- A sum over all tokens of terms that vanish outside row b0 is the sum over row b0. -/
theorem sum_tokens_of_row {M : Type*} [AddCommMonoid M] (b0 : Fin 16) (p : Fin 16 → Fin 2048 → Prop)
    [∀ b s, Decidable (p b s)] (f : Fin 16 → Fin 2048 → M) (hp : ∀ b s, p b s → b = b0) :
    (∑ n : Fin 32768, if p (rowOf n) (colOf n) then f (rowOf n) (colOf n) else 0)
      = ∑ s : Fin 2048, if p b0 s then f b0 s else 0 := by
  -- number the tokens by (row, place), then split the sum into rows
  rw [← Equiv.sum_comp tokEquiv, Fintype.sum_prod_type]
  simp only [rowOf_tokEquiv, colOf_tokEquiv]
  -- every row but b0 contributes nothing
  apply Finset.sum_eq_single b0
  · intro b _ hne
    apply Finset.sum_eq_zero
    intro s _
    rw [if_neg (fun h => hne (hp b s h))]
  · intro h
    exact absurd (Finset.mem_univ b0) h

end Cert.Pool

end
-- ==== Proof.RefScatter.lean ====
/-
  The reference's two accumulating scatters read at one element, on the extended reals. Update n (a whole row of 128
  features in the first scatter, one number in the second) is added at the row its index word names, read signed; so the
  result at row g is the operand there plus the sum of the updates whose index word is g.
-/
import proofs.«430442_j6803228197089_3_alg».proof.Proof.Gen.ReferenceIdeal
import Idealize.ShloMosaic.PureOps.Ideal
import Idealize.ShloMosaic.Lib.ValueIdx

noncomputable section

open scoped BigOperators

namespace Cert.ReferenceIdeal.Scatter

open Cert.ReferenceIdeal Cert.ReferenceIdeal.Gen Idealize.ShloMosaic Idealize.ShloMosaic.ValueIdx

/-! ## Where an update lands -/

/-- An update index lands at operand index `i` exactly when its start plus its window coordinate is `i`'s coordinate
    on every axis: a coordinate of `i` is at least 0 and below the operand's extent, so both bounds of the landing
    condition hold by themselves. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · rintro rfl a
      have := h a
      show _ = (((d.start j idx a + (d.window j a : ℤ)).toNat : ℕ) : ℤ)
      omega
    · intro h'
      funext a
      refine Fin.ext ?_
      show (d.start j idx a + (d.window j a : ℤ)).toNat = (i a).val
      rw [h' a]; simp
  · constructor
    · intro h'; cases h'
    · intro h'
      exfalso; apply h
      intro a
      have := (i a).isLt
      rw [h' a]
      omega

/-! ## The scatter at one element, as a sum over every update -/

/-- The accumulating scatter at operand index `i`: the operand there plus, over every update index, the update if it
    lands at `i` and 0 if not. -/
theorem scatterAdd_apply {s si u : Shape} (d : ScatterDims s si u) {w : Nat} (x : FVec Ideal s .f32) (idx : IVec si w)
    (upd : FVec Ideal u .f32) (i : s.Idx) :
    Host.scatterAdd d x idx upd i = x i + ∑ j, if d.resultIdx? j idx = some i then upd j else 0 := by
  unfold Host.scatterAdd
  rw [Ideal.hostScatterAdd_def]
  unfold Ideal.hostScatterAdd
  rw [Finset.sum_filter]

/-! ## The scatter of rows: operand [4097, 128], index words [32768, 1], updates [32768, 128]

  Operand axis 0 is the one the index word names and is inserted (no window coordinate); operand axis 1 is the window
  axis and is named by no index word (start 0). -/

/-- The first scatter's dimension numbers. -/
abbrev dRows := scatter_S4097x128_S32768x1_S32768x128_1_0_0_1

/-- On axis 0 update (n, q') starts at its index word, read signed. -/
theorem rows_start0 (idx : IVec S32768x1 32) (n : Fin 32768) (q' : Fin 128) :
    dRows.start (ix2 n q') idx 0 = (idx (ix2 n 0)).toInt := by
  unfold ScatterDims.start
  rw [dif_pos (show (0 : Fin 2) ∈ dRows.scatterDimsToOperandDims from List.mem_singleton.mpr rfl)]
  congr 2
  funext b
  refine Fin.ext ?_
  match b with
  | ⟨0, _⟩ => rfl
  | ⟨1, _⟩ => rfl

/-- On axis 1 it starts at 0: no index word names that axis. -/
theorem rows_start1 (idx : IVec S32768x1 32) (n : Fin 32768) (q' : Fin 128) :
    dRows.start (ix2 n q') idx 1 = 0 := by
  unfold ScatterDims.start
  rw [dif_neg (show ¬ (1 : Fin 2) ∈ dRows.scatterDimsToOperandDims by decide)]

/-- Axis 0 is inserted: the window coordinate there is 0. -/
theorem rows_window0 (n : Fin 32768) (q' : Fin 128) : dRows.window (ix2 n q') 0 = 0 := by
  unfold ScatterDims.window
  rw [dif_neg (show ¬ (0 : Fin 2) ∈ dRows.sKept by decide)]

/-- Axis 1 carries the update's window coordinate q'. -/
theorem rows_window1 (n : Fin 32768) (q' : Fin 128) : dRows.window (ix2 n q') 1 = q'.val := by
  unfold ScatterDims.window
  rw [dif_pos (show (1 : Fin 2) ∈ dRows.sKept by decide)]
  rfl

/-- Update (n, q') lands at (g, q) exactly when its index word is g and q' = q. -/
theorem rows_lands (idx : IVec S32768x1 32) (n : Fin 32768) (q' : Fin 128) (g : Fin 4097) (q : Fin 128) :
    dRows.resultIdx? (ix2 n q') idx = some (ix2 g q) ↔ ((idx (ix2 n 0)).toInt = (g.val : ℤ) ∧ q' = q) := by
  rw [resultIdx?_eq_some_iff]
  constructor
  · intro h
    have h0 := h 0
    have h1 := h 1
    rw [rows_start0, rows_window0] at h0
    rw [rows_start1, rows_window1] at h1
    refine ⟨?_, Fin.ext ?_⟩
    · simpa using h0
    · have h1' : ((q'.val : ℕ) : ℤ) = ((q.val : ℕ) : ℤ) := by simpa using h1
      exact_mod_cast h1'
  · rintro ⟨hg, rfl⟩ a
    match a with
    | ⟨0, _⟩ =>
      show dRows.start (ix2 n q') idx 0 + (dRows.window (ix2 n q') 0 : ℤ) = (g.val : ℤ)
      rw [rows_start0, rows_window0, hg]; simp
    | ⟨1, _⟩ =>
      show dRows.start (ix2 n q') idx 1 + (dRows.window (ix2 n q') 1 : ℤ) = (q'.val : ℤ)
      rw [rows_start1, rows_window1]; simp

/-- The scatter of rows: at (g, q), the operand plus the updates' feature q over the updates whose index word is g. -/
theorem rows_apply (x : FVec Ideal S4097x128 .f32) (idx : IVec S32768x1 32) (upd : FVec Ideal S32768x128 .f32)
    (g : Fin 4097) (q : Fin 128) :
    Host.scatterAdd scatter_S4097x128_S32768x1_S32768x128_1_0_0_1 x idx upd (ix2 g q)
      = x (ix2 g q) + ∑ n : Fin 32768, if (idx (ix2 n 0)).toInt = (g.val : ℤ) then upd (ix2 n q) else 0 := by
  rw [scatterAdd_apply]
  refine congrArg (x (ix2 g q) + ·) ?_
  rw [sum_idx2]
  refine Finset.sum_congr rfl fun n _ => ?_
  simp only [rows_lands]
  by_cases hg : (idx (ix2 n 0)).toInt = (g.val : ℤ)
  · simp only [hg, true_and, if_true]
    exact Finset.sum_ite_eq' Finset.univ q (fun q' => upd (ix2 n q')) |>.trans (by simp)
  · simp only [hg, false_and, if_false, Finset.sum_const_zero]

/-! ## The scatter of numbers: operand [4097], index words [32768, 1], updates [32768]

  The operand's one axis is named by the index word and inserted: no window axis at all. -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- The second scatter's dimension numbers. -/
abbrev dFlat := scatter_S4097_S32768x1_S32768_n_0_0_1

/-- Update n starts at its index word, read signed. -/
theorem flat_start0 (idx : IVec S32768x1 32) (n : Fin 32768) :
    dFlat.start (ix1 n) idx 0 = (idx (ix2 n 0)).toInt := by
  unfold ScatterDims.start
  rw [dif_pos (show (0 : Fin 1) ∈ dFlat.scatterDimsToOperandDims from List.mem_singleton.mpr rfl)]
  congr 2
  funext b
  refine Fin.ext ?_
  match b with
  | ⟨0, _⟩ => rfl
  | ⟨1, _⟩ => rfl

/-- The one operand axis is inserted: the window coordinate is 0. -/
theorem flat_window0 (n : Fin 32768) : dFlat.window (ix1 n) 0 = 0 := by
  unfold ScatterDims.window
  rw [dif_neg (show ¬ (0 : Fin 1) ∈ dFlat.sKept by decide)]

/-- Update n lands at g exactly when its index word is g. -/
theorem flat_lands (idx : IVec S32768x1 32) (n : Fin 32768) (g : Fin 4097) :
    dFlat.resultIdx? (ix1 n) idx = some (ix1 g) ↔ (idx (ix2 n 0)).toInt = (g.val : ℤ) := by
  rw [resultIdx?_eq_some_iff]
  constructor
  · intro h
    have h0 := h 0
    rw [flat_start0, flat_window0] at h0
    simpa using h0
  · intro hg a
    match a with
    | ⟨0, _⟩ =>
      show dFlat.start (ix1 n) idx 0 + (dFlat.window (ix1 n) 0 : ℤ) = (g.val : ℤ)
      rw [flat_start0, flat_window0, hg]; simp

/-- The scatter of numbers: at g, the operand plus the updates whose index word is g. -/
theorem flat_apply (x : FVec Ideal S4097 .f32) (idx : IVec S32768x1 32) (upd : FVec Ideal S32768 .f32) (g : Fin 4097) :
    Host.scatterAdd scatter_S4097_S32768x1_S32768_n_0_0_1 x idx upd (ix1 g)
      = x (ix1 g) + ∑ n : Fin 32768, if (idx (ix2 n 0)).toInt = (g.val : ℤ) then upd (ix1 n) else 0 := by
  rw [scatterAdd_apply]
  refine congrArg (x (ix1 g) + ·) ?_
  rw [sum_idx1]
  refine Finset.sum_congr rfl fun n _ => ?_
  simp only [flat_lands]

end Cert.ReferenceIdeal.Scatter

end
-- ==== Proof.RefValue.lean ====
/-
  The reference computes the specification: its three results, stage by stage, are the means, the empty flags and the
  projection of the argument arrays.
-/
import proofs.«430442_j6803228197089_3_alg».proof.Proof.RefRead
import proofs.«430442_j6803228197089_3_alg».proof.Proof.Spec
import proofs.«430442_j6803228197089_3_alg».proof.Proof.SlotLaw
import proofs.«430442_j6803228197089_3_alg».proof.Proof.RefScatter

noncomputable section

open scoped BigOperators

namespace Cert.ReferenceIdeal.PoolValue

open Cert.ReferenceIdeal Cert.ReferenceIdeal.Gen Cert.ReferenceIdeal.ReadP Idealize.ShloMosaic Idealize.ShloMosaic.ValueIdx Cert.Pool

/-- The left operand's index of the contraction at (b, s, ·), step k, is (b, s, k). -/
theorem lidx_ix3 (b : Fin 16) (s : Fin 2048) (d : Fin 128) (k : Fin 768) :
    lidx_main_v0 (ix3 b s d) k = ix3 b s k := by
  funext a; match a with | ⟨0, _⟩ => rfl | ⟨1, _⟩ => rfl | ⟨2, _⟩ => rfl

/-- The right operand's index of the contraction at (·, ·, d), step k, is (k, d). -/
theorem ridx_ix3 (b : Fin 16) (s : Fin 2048) (d : Fin 128) (k : Fin 768) :
    ridx_main_v0 (ix3 b s d) k = ix2 k d := by
  funext a; match a with | ⟨0, _⟩ => rfl | ⟨1, _⟩ => rfl

/-- The bias, broadcast twice, is read at the feature. -/
theorem bias_ix3 (b : Fin 16) (s : Fin 2048) (d : Fin 128) :
    idx_main_v1 (idx_main_v2 (ix3 b s d)) = ix1 d := by
  funext a; match a with | ⟨0, _⟩ => rfl

/-- The reference's projection at (b, s, d). -/
theorem proj_apply (x1 : FVec Ideal S16x2048x768 .f32) (x4 : FVec Ideal S768x128 .f32) (x5 : FVec Ideal S128 .f32)
    (b : Fin 16) (s : Fin 2048) (d : Fin 128) :
    val_main_v3 (F := Ideal) x1 x4 x5 (ix3 b s d) = proj x1 x4 x5 b s d := by
  rw [val_main_v3_apply, val_main_v0_apply, val_main_v2_apply, val_main_v1_apply, bias_ix3]
  simp only [lidx_ix3, ridx_ix3]
  rfl

/-- The reference's projection is the specification's. -/
theorem proj_eq (x1 : FVec Ideal S16x2048x768 .f32) (x4 : FVec Ideal S768x128 .f32) (x5 : FVec Ideal S128 .f32) :
    val_main_v3 (F := Ideal) x1 x4 x5 = Gproj x1 x4 x5 := by
  funext i
  obtain ⟨b, s, d, rfl⟩ : ∃ (b : Fin 16) (s : Fin 2048) (d : Fin 128), i = ix3 b s d := ⟨i 0, i 1, i 2, eq_ix3 i⟩
  exact proj_apply x1 x4 x5 b s d

/-- The reference's in-range bit of token (r, c) is the specification's. -/
theorem ok_apply (x2 x3 : IVec S16x2048 32) (r : Fin 16) (c : Fin 2048) :
    val_main_v14 (F := Ideal) x2 x3 (ix2 r c) = okW (x2 (ix2 r c)) (x3 (ix2 r c)) := by
  rw [val_main_v14_apply, val_main_v11_apply, val_main_v8_apply, val_main_v5_apply, val_main_v7_apply,
    val_main_v10_apply, val_main_v13_apply, val_main_v4_apply, val_main_v6_apply, val_main_v9_apply,
    val_main_v12_apply, val_main_c_apply, val_main_c_0_apply, val_main_c_1_apply, val_main_c_2_apply]
  rfl

/-- The reference's scatter index of token (r, c) is the specification's slot among all rows' slots. -/
theorem gslot_apply (x2 x3 : IVec S16x2048 32) (r : Fin 16) (c : Fin 2048) :
    val_main_v28 (F := Ideal) x2 x3 (ix2 r c) = gslotW r (x2 (ix2 r c)) (x3 (ix2 r c)) := by
  rw [val_main_v28_apply, ok_apply, val_main_v27_apply, val_main_v24_apply, val_main_v26_apply, val_main_v22_apply,
    val_main_v20_apply, val_main_v21_apply, val_main_v18_apply, val_main_v16_apply, val_main_v17_apply,
    val_main_v15_apply, val_main_c_3_apply, val_main_v19_apply, val_main_c_4_apply, val_main_v23_apply,
    val_main_c_5_apply, val_main_v25_apply, val_main_c_6_apply, val_main_call0_v1_apply, val_main_call0_v0_apply,
    val_main_c_7_apply]
  rfl

/-- The row of the scattered array that (b, a, t) names: (b · 8 + a) · 32 + t. -/
def gRow (b : Fin 16) (a : Fin 8) (t : Fin 32) : Fin 4097 :=
  ⟨(b.val * 8 + a.val) * 32 + t.val, by have := b.isLt; have := a.isLt; have := t.isLt; omega⟩

/-- That row is b · 256 + the slot of (a, t). -/
theorem gRow_val (b : Fin 16) (a : Fin 8) (t : Fin 32) :
    ((gRow b a t).val : ℤ) = ((b.val * 256 + (slotOf a t).val : ℕ) : ℤ) := by
  show (((b.val * 8 + a.val) * 32 + t.val : ℕ) : ℤ) = ((b.val * 256 + (a.val * 32 + t.val) : ℕ) : ℤ)
  congr 1; omega

/-- Update n of the counts' scatter carries the index word of token (rowOf n, colOf n). -/
theorem tok_idx38 (n : Fin 32768) : idx_main_v29 (idx_main_v38 (ix2 n 0)) = ix2 (rowOf n) (colOf n) := by
  funext e; match e with | ⟨0, _⟩ => rfl | ⟨1, _⟩ => rfl

/-- Update n of the totals' scatter carries the same word. -/
theorem tok_idx32 (n : Fin 32768) : idx_main_v29 (idx_main_v32 (ix2 n 0)) = ix2 (rowOf n) (colOf n) := by
  funext e; match e with | ⟨0, _⟩ => rfl | ⟨1, _⟩ => rfl

/-- Update n of the counts' scatter is the in-range bit of token (rowOf n, colOf n). -/
theorem tok_idx35 (n : Fin 32768) : idx_main_v35 (ix1 n) = ix2 (rowOf n) (colOf n) := by
  funext e; match e with | ⟨0, _⟩ => rfl | ⟨1, _⟩ => rfl

/-- The bit 1, converted to a number, is one. -/
theorem uitofp_one : FloatOps.uitofp (F := Ideal) .f32 (1#1 : BitVec 1) = 1 := by
  show ((((1 : ℕ)) : ℝ) : EReal) = 1
  rw [Nat.cast_one, EReal.coe_one]

/-- The reference's count at (b, a, t): the scatter collects, at row b · 256 + slot, one for every token whose index
    word is that row; such a token is in row b, in the slot, and in range, so the sum over all tokens is the row's. -/
theorem count_apply (x2 x3 : IVec S16x2048 32) (b : Fin 16) (a : Fin 8) (t : Fin 32) :
    val_main_v42 (F := Ideal) x2 x3 (ix3 b a t) = count x2 x3 b (slotOf a t) := by
  rw [val_main_v42_apply, val_main_v40_apply]
  have hg : idx_main_v40 (idx_main_v42 (ix3 b a t)) = ix1 (gRow b a t) := by
    funext e; match e with | ⟨0, _⟩ => rfl
  rw [hg]
  unfold val_main_v39
  rw [Scatter.flat_apply]
  have h0 : val_main_v37 (F := Ideal) (ix1 (gRow b a t)) = 0 := by
    rw [val_main_v37_apply, val_main_cst_8_apply]; exact Ideal.ofBits_zero_f32
  rw [h0, zero_add]
  have hsum : ∀ n : Fin 32768,
      (if (val_main_v38 (F := Ideal) x2 x3 (ix2 n 0)).toInt = ((gRow b a t).val : ℤ)
        then val_main_v36 (F := Ideal) x2 x3 (ix1 n) else 0)
      = if (rowOf n = b ∧ hits x2 x3 (rowOf n) (slotOf a t) (colOf n))
        then FloatOps.uitofp (F := Ideal) .f32 (okW (x2 (ix2 (rowOf n) (colOf n))) (x3 (ix2 (rowOf n) (colOf n))))
        else 0 := by
    intro n
    rw [val_main_v38_apply, val_main_v29_apply, tok_idx38, gslot_apply, val_main_v36_apply, val_main_v35_apply,
      tok_idx35, ok_apply, gRow_val]
    exact if_congr (gslot_iff _ _ _ _ _) rfl rfl
  rw [Finset.sum_congr rfl (fun n _ => hsum n)]
  rw [sum_tokens_of_row b (fun r c => r = b ∧ hits x2 x3 r (slotOf a t) c)
    (fun r c => FloatOps.uitofp (F := Ideal) .f32 (okW (x2 (ix2 r c)) (x3 (ix2 r c)))) (fun r c h => h.1)]
  unfold Cert.Pool.count
  refine Finset.sum_congr rfl fun s _ => ?_
  by_cases h : hits x2 x3 b (slotOf a t) s
  · rw [if_pos ⟨rfl, h⟩, if_pos h, ok_of_slot _ _ _ h]
    exact uitofp_one
  · rw [if_neg (fun h' => h h'.2), if_neg h]

/-- The reference's empty flag at (b, a, t). -/
theorem empty_apply (x2 x3 : IVec S16x2048 32) (b : Fin 16) (a : Fin 8) (t : Fin 32) :
    val_main_v44 (F := Ideal) x2 x3 (ix3 b a t) = emptyW x2 x3 b (slotOf a t) := by
  rw [val_main_v44_apply, count_apply, val_main_v43_apply, val_main_cst_9_apply]
  rfl

/-- The reference's empty flags are the specification's. -/
theorem empty_eq (x2 x3 : IVec S16x2048 32) : val_main_v44 (F := Ideal) x2 x3 = Gempty x2 x3 := by
  funext i
  obtain ⟨b, a, t, rfl⟩ : ∃ (b : Fin 16) (a : Fin 8) (t : Fin 32), i = ix3 b a t := ⟨i 0, i 1, i 2, eq_ix3 i⟩
  exact empty_apply x2 x3 b a t

/-- Row n of the flattened projections is token (rowOf n, colOf n): n · 128 + d splits as ((n / 2048) · 2048 + n % 2048) · 128 + d. -/
theorem tok_idx30 (n : Fin 32768) (d : Fin 128) : idx_main_v30 (ix2 n d) = ix3 (rowOf n) (colOf n) d := by
  have hn := n.isLt; have hd := d.isLt
  funext e
  match e with
  | ⟨0, _⟩ => exact Fin.ext (by show (n.val * 128 + d.val) / 262144 = n.val / 2048; omega)
  | ⟨1, _⟩ => exact Fin.ext (by show (n.val * 128 + d.val) / 128 % 2048 = n.val % 2048; omega)
  | ⟨2, _⟩ => exact Fin.ext (by show (n.val * 128 + d.val) % 128 = d.val; omega)

/-- Entry (b, a, t, d) of the means' layout is entry (row, d) of the scattered array. -/
theorem pool_idx (b : Fin 16) (a : Fin 8) (t : Fin 32) (d : Fin 128) :
    idx_main_v34 (idx_main_v41 (ix4 b a t d)) = ix2 (gRow b a t) d := by
  have hd := d.isLt
  funext e
  match e with
  | ⟨0, _⟩ => exact Fin.ext (by show (((b.val * 8 + a.val) * 32 + t.val) * 128 + d.val) / 128 = (b.val * 8 + a.val) * 32 + t.val; omega)
  | ⟨1, _⟩ => exact Fin.ext (by show (((b.val * 8 + a.val) * 32 + t.val) * 128 + d.val) % 128 = d.val; omega)

/-- The reference's total at (b, a, t, d): the scatter collects, at row b · 256 + slot, the projections of the tokens
    whose index word is that row, which are the row's tokens in the slot. -/
theorem total_apply (x1 : FVec Ideal S16x2048x768 .f32) (x2 x3 : IVec S16x2048 32) (x4 : FVec Ideal S768x128 .f32)
    (x5 : FVec Ideal S128 .f32) (b : Fin 16) (a : Fin 8) (t : Fin 32) (d : Fin 128) :
    val_main_v41 (F := Ideal) x1 x2 x3 x4 x5 (ix4 b a t d) = total x1 x4 x5 x2 x3 b (slotOf a t) d := by
  rw [val_main_v41_apply, val_main_v34_apply, pool_idx]
  unfold val_main_v33
  rw [Scatter.rows_apply]
  have h0 : val_main_v31 (F := Ideal) (ix2 (gRow b a t) d) = 0 := by
    rw [val_main_v31_apply, val_main_cst_apply]; exact Ideal.ofBits_zero_f32
  rw [h0, zero_add]
  have hsum : ∀ n : Fin 32768,
      (if (val_main_v32 (F := Ideal) x2 x3 (ix2 n 0)).toInt = ((gRow b a t).val : ℤ)
        then val_main_v30 (F := Ideal) x1 x4 x5 (ix2 n d) else 0)
      = if (rowOf n = b ∧ hits x2 x3 (rowOf n) (slotOf a t) (colOf n))
        then proj x1 x4 x5 (rowOf n) (colOf n) d else 0 := by
    intro n
    rw [val_main_v32_apply, val_main_v29_apply, tok_idx32, gslot_apply, val_main_v30_apply, tok_idx30, proj_apply,
      gRow_val]
    exact if_congr (gslot_iff _ _ _ _ _) rfl rfl
  rw [Finset.sum_congr rfl (fun n _ => hsum n)]
  rw [sum_tokens_of_row b (fun r c => r = b ∧ hits x2 x3 r (slotOf a t) c)
    (fun r c => proj x1 x4 x5 r c d) (fun r c h => h.1)]
  unfold Cert.Pool.total
  refine Finset.sum_congr rfl fun s _ => ?_
  by_cases h : hits x2 x3 b (slotOf a t) s
  · rw [if_pos ⟨rfl, h⟩, if_pos h]
  · rw [if_neg (fun h' => h h'.2), if_neg h]

/-- The divisor at (b, a, t, d), broadcast along the features, is read at (b, a, t). -/
theorem div_idx (b : Fin 16) (a : Fin 8) (t : Fin 32) (d : Fin 128) :
    idx_main_v47 (idx_main_v48 (ix4 b a t d)) = ix3 b a t := by
  funext e; match e with | ⟨0, _⟩ => rfl | ⟨1, _⟩ => rfl | ⟨2, _⟩ => rfl

/-- The reference's means are the specification's. -/
theorem pooled_eq (x1 : FVec Ideal S16x2048x768 .f32) (x2 x3 : IVec S16x2048 32) (x4 : FVec Ideal S768x128 .f32)
    (x5 : FVec Ideal S128 .f32) : val_main_v49 (F := Ideal) x1 x2 x3 x4 x5 = Gpooled x1 x4 x5 x2 x3 := by
  funext i
  obtain ⟨b, a, t, d, rfl⟩ : ∃ (b : Fin 16) (a : Fin 8) (t : Fin 32) (d : Fin 128), i = ix4 b a t d :=
    ⟨i 0, i 1, i 2, i 3, eq_ix4 i⟩
  rw [val_main_v49_apply, total_apply, val_main_v48_apply, val_main_v47_apply, div_idx, val_main_v46_apply,
    empty_apply, count_apply, val_main_v45_apply, val_main_cst_10_apply]
  rfl

end Cert.ReferenceIdeal.PoolValue

end
-- ==== Proof.lean ====
/-
  The kernel pools projected tokens into per-(row, attr, item) means with a one-hot matrix product; the reference does it
  with two accumulating scatters over all rows at once. Both are the same three functions of the argument arrays
  (Proof/Spec.lean): the projection  proj[b, s, ·] = hs[b, s, ·] · w + bias, the mean of the projections of a row's
  tokens in each slot (the total over the count, over one for an empty slot), and the flag "the slot is empty".

  On the extended reals the two sides meet without any algebra beyond sums: a one-hot factor is 0 or 1, so the kernel's
  product Σ_s onehot[k, s] · proj[s, d] is the sum of the projections of the tokens in slot k (0 · x = 0 and 1 · x = x hold for
  every extended real, so no finiteness is used), its lane sum of the one-hot row is the number of those tokens, and the
  reference's scatter adds, at row b · 256 + k of its 4097-row accumulator, exactly the updates of the tokens of batch row b
  whose slot is k (a token out of range goes to row 4096, which is cut off). Rounding to bf16 and back is the identity
  here, which is also the one rewrite the idealized kernel records.

  The pieces: Proof/BodyValue.lean (one grid point's three output blocks at an entry), Proof/KernelValue.lean (the blocks
  tile the arrays; the reshapes after the launch), Proof/RefScatter.lean (a scatter read at an element), Proof/SlotLaw.lean
  (the slot arithmetic on 32-bit words and the collapse of a sum over all tokens to one row), Proof/RefValue.lean (the
  reference's stages are the specification).
-/
import proofs.«430442_j6803228197089_3_alg».proof.Defs
import proofs.«430442_j6803228197089_3_alg».proof.Proof.Gen.Kernel
import proofs.«430442_j6803228197089_3_alg».proof.Proof.Gen.Kernel.Skeleton
import proofs.«430442_j6803228197089_3_alg».proof.Proof.Gen.Kernel.Launch
import proofs.«430442_j6803228197089_3_alg».proof.Proof.Gen.Kernel.Points
import proofs.«430442_j6803228197089_3_alg».proof.Proof.Gen.Kernel.Frame
import proofs.«430442_j6803228197089_3_alg».proof.Proof.Gen.KernelIdeal
import proofs.«430442_j6803228197089_3_alg».proof.Proof.Gen.KernelIdeal.Skeleton
import proofs.«430442_j6803228197089_3_alg».proof.Proof.Gen.KernelIdeal.Launch
import proofs.«430442_j6803228197089_3_alg».proof.Proof.Gen.KernelIdeal.Points
import proofs.«430442_j6803228197089_3_alg».proof.Proof.Gen.KernelIdeal.Frame
import proofs.«430442_j6803228197089_3_alg».proof.Proof.Gen.ReferenceIdeal
import proofs.«430442_j6803228197089_3_alg».proof.Proof.Gen.Pre_finite_inputs
import proofs.«430442_j6803228197089_3_alg».proof.Proof.RefRun
import proofs.«430442_j6803228197089_3_alg».proof.Proof.RefRead
import proofs.«430442_j6803228197089_3_alg».proof.Proof.KernelValue
import proofs.«430442_j6803228197089_3_alg».proof.Proof.RefValue
import Idealize.ShloMosaic.Adequacy
import Idealize.ShloMosaic.Init

noncomputable section

namespace Cert.Proof

open Idealize.ShloMosaic Idealize.SL.Sem Cert.Pool

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.ValueP.run (F := Ideal) m ρ)

/-- The one recorded rewrite: narrowing the one-hot matrix to bf16 and widening it back is the identity on the extended
    reals, and the rounding through bf16 on words. -/
theorem preserves : Cert.preserves_Kernel_KernelIdeal := IdealRules.truncf_extf.statement _ .f32 .bf16

/-- Both idealized programs end with the specification's three functions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Gpooled (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Gempty (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Gproj (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.PoolValue.run m ρ, ?_⟩
  refine (θ_run Cert.ReferenceIdeal.defs _ _).mono (fun _ h c => ?_) (Cert.ReferenceIdeal.ValueP.run (F := Ideal) m' ρ')
  obtain ⟨h0, h1, h2, hargs⟩ := h c
  obtain ⟨-, a1, a2, a3, a4, a5⟩ := hagree c
  refine ⟨?_, ?_, ?_, hargs⟩
  · refine (h0.trans (Cert.ReferenceIdeal.ReadP.val_main_v49_eq (F := Ideal) m' c)).trans ?_
    rw [Cert.ReferenceIdeal.PoolValue.pooled_eq, a1, a2, a3, a4, a5]
  · refine (h1.trans (Cert.ReferenceIdeal.ReadP.val_main_v44_eq (F := Ideal) _ _)).trans ?_
    rw [Cert.ReferenceIdeal.PoolValue.empty_eq, a2, a3]
  · refine (h2.trans (Cert.ReferenceIdeal.ReadP.val_main_v3_eq (F := Ideal) _ _ _)).trans ?_
    rw [Cert.ReferenceIdeal.PoolValue.proj_eq, a1, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
